-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16384 : Shape := ⟨2, ![8192, 16384]⟩
abbrev S16384x1024 : Shape := ⟨2, ![16384, 1024]⟩
abbrev S1024x1024 : Shape := ⟨2, ![1024, 1024]⟩
abbrev S_ : Shape := ⟨0, ![]⟩

class Facts : Prop where
  bcast_S_S8192x16384 : S_.BroadcastsInDim S8192x16384 (![] : Fin 0 → Fin S8192x16384.rank)
  reducesTo_S8192x16384_S_d0_1 : S8192x16384.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8192x16384 .f32) (main_arg1 : FVec F S16384x1024 .f32) (main_arg2 : FVec F S1024x1024 .f32) (main_arg3 : FVec F S1024x1024 .f32) : IVec S_ 1 :=
  let main_v0 : FVec F S8192x16384 .f32 := Host.absf main_arg0
  let main_cst : FVec F S_ .f32 := constant S_ .f32 0x7F800000#32
  let main_v1 : FVec F S8192x16384 .f32 := broadcastInDim S8192x16384 ![] bcast_S_S8192x16384 main_cst
  let main_v2 : IVec S8192x16384 1 := cmpf .olt main_v0 main_v1
  let main_c : IVec S_ 1 := constantI S_ 1 1#1
  let main_v3 : IVec S_ 1 := (fun x v => Host.reduce IntOp.andi x v reducesTo_S8192x16384_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8192x16384 : Shape := ⟨2, ![8192, 16384]⟩
abbrev S16384x1024 : Shape := ⟨2, ![16384, 1024]⟩
abbrev S1024x1024 : Shape := ⟨2, ![1024, 1024]⟩
abbrev S8192x1024 : Shape := ⟨2, ![8192, 1024]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 11
  | .vmem => 15
  | .smem => 0
  | _ => 0

abbrev bufTy : (tb : Table) → Fin (tcTables nBuf tb) → BufTy
  | .hbm, ⟨0, _⟩ => ⟨S8192x16384, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S8192x1024, .f32⟩
  | .hbm, ⟨9, _⟩ => ⟨S16384x1024, .bf16⟩
  | .hbm, ⟨10, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x2048, .f32⟩
  | .local _ .vmem, ⟨6, _⟩ => ⟨S512x2048, .f32⟩
  | .local _ .vmem, ⟨7, _⟩ => ⟨S2048x1024, .bf16⟩
  | .local _ .vmem, ⟨8, _⟩ => ⟨S2048x1024, .bf16⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  transposes_S1024x1024_S1024x1024_1_0 : S1024x1024.Transposes [1, 0] S1024x1024
  bitsLt_bf16_f32 : FTy.bits .bf16 < FTy.bits .f32
  slices_S16384x1024_S8192x1024_0_0 : S16384x1024.Slices ![0, 0] S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  dot_S1024x1024_S1024x1024_S1024x1024_1_0_0_1_n_n_wf : DotDims.WF S1024x1024 S1024x1024 S1024x1024 [1] [0] [0] [1] [] []
  dot_S512x2048_S2048x1024_S512x1024_1_0_0_1_n_n_wf : DotDims.WF S512x2048 S2048x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .bf16 = 32 ∨ (Rect.block (s := S16384x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x16384.size a
  hwx1_0 : ∀ i : grid1.Coords, EltTy.bits .f32 = 32 ∨ (Rect.block (s := S8192x16384) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S16384x1024.size a
  hwx1_1 : ∀ i : grid1.Coords, EltTy.bits .bf16 = 32 ∨ (Rect.block (s := S16384x1024) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x1024.size a
  hwx1_2 : ∀ i : grid1.Coords, EltTy.bits .f32 = 32 ∨ (Rect.block (s := S8192x1024) S512x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S8192x1024.size a
  hwx1_4 : ∀ i : grid1.Coords, EltTy.bits .f32 = 32 ∨ (Rect.block (s := S8192x1024) S512x1024.size (cc1_transform_4 i) (hinb1_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x16384 : Shape := ⟨2, ![8192, 16384]⟩
abbrev S16384x1024 : Shape := ⟨2, ![16384, 1024]⟩
abbrev S1024x1024 : Shape := ⟨2, ![1024, 1024]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S16384x1024, .f32⟩
  | .hbm, ⟨7, _⟩ => ⟨S8192x1024, .f32⟩
  | .hbm, ⟨8, _⟩ => ⟨S8192x1024, .f32⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  slices_S16384x1024_S8192x1024_0_0 : S16384x1024.Slices ![0, 0] S8192x1024
  dot_S8192x1024_S1024x1024_S8192x1024_1_1_0_0_n_n_wf : DotDims.WF S8192x1024 S1024x1024 S8192x1024 [1] [1] [0] [0] [] []
  dot_S16384x1024_S1024x1024_S16384x1024_1_1_0_0_n_n_wf : DotDims.WF S16384x1024 S1024x1024 S16384x1024 [1] [1] [0] [0] [] []
  dot_S8192x16384_S16384x1024_S8192x1024_1_0_0_1_n_n_wf : DotDims.WF S8192x16384 S16384x1024 S8192x1024 [1] [0] [0] [1] [] []

variable [Facts₀]

def dot_S8192x1024_S1024x1024_S8192x1024_1_1_0_0_n_n : DotDims S8192x1024 S1024x1024 S8192x1024 where
  lhsContracting := [1]
  rhsContracting := [1]
  lhsNonContracting := [0]
  rhsNonContracting := [0]
  lhsBatch := []
  rhsBatch := []
  wf := dot_S8192x1024_S1024x1024_S8192x1024_1_1_0_0_n_n_wf
def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf
def dot_S8192x16384_S16384x1024_S8192x1024_1_0_0_1_n_n : DotDims S8192x16384 S16384x1024 S8192x1024 where
  lhsContracting := [1]
  rhsContracting := [0]
  lhsNonContracting := [0]
  rhsNonContracting := [1]
  lhsBatch := []
  rhsBatch := []
  wf := dot_S8192x16384_S16384x1024_S8192x1024_1_0_0_1_n_n_wf

class Facts : Prop extends Facts₀ where

variable [Facts]
-- ==== Proof.KI.Data.lean ====
/-
  The proof data of the two pipelined kernels, over any contents `V` the buffers hold when a kernel is entered.

  Kernel 0 multiplies a 1024-row block of `x` by the transposed neighbour weights: at grid point `t` its output
  block is the product of block `t` of `x` with the whole weight matrix, so what it leaves is a function of the
  two input blocks at the point alone.

  Kernel 1 walks a 16 x 8 grid (row blocks of 512, then reduction blocks of 2048). Along the reduction axis it
  keeps a running sum in a scratch buffer: cleared at reduction step 0, increased at every step by the product of
  the point's block of the adjacency matrix with the matching 2048 rows of kernel 0's result; at the last step it
  adds the product of the row block of `x` with the transposed self weights and stores the total as the output
  block. So the scratch after point `n` is a recursion on `n` (`accAt`), restarted whenever `n` is a multiple
  of 8, and the output block written back at the points `n ≡ 7 (mod 8)` is a function of that scratch and the
  point's other two input blocks (`outAt`).
-/
import proofs.«163849_j14001593385221_1_alg».proof.Proof.Gen.KernelIdeal.Launch
import proofs.«163849_j14001593385221_1_alg».proof.Proof.Gen.KernelIdeal.Skeleton
import proofs.«163849_j14001593385221_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Kernel 0: the blocks and what the body leaves -/

/-- Window `w`'s block of kernel 0 at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 1024 rows of `x` at point `t`. -/
abbrev xrows (c : Dev nD) (t : Fin cfg0.N) : Vec F S1024x1024 .f32 := iblk0 V c 0 t
/-- The transposed neighbour weights (the same block at every point). -/
abbrev wnT (c : Dev nD) (t : Fin cfg0.N) : Vec F S1024x1024 .bf16 := iblk0 V c 1 t

/-- What kernel 0 leaves in its output block at point `t`: the product of the point's rows with the weights. -/
def yblk (c : Dev nD) (t : Fin cfg0.N) : Vec F S1024x1024 .bf16 := k0_pay1 (xrows V c t) (wnT V c t)

/-- Kernel 0's proof data: arrays as found, inputs left in place, the output block the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => yblk V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = yblk V c t := by dsimp only [dat0]

/-! ## Kernel 1: the blocks, the running sum, the output block -/

/-- Window `w`'s block of kernel 1 at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point's 512 x 2048 block of the adjacency matrix. -/
abbrev adj (c : Dev nD) (t : Fin cfg1.N) : Vec F S512x2048 .f32 := iblk1 V c 0 t
/-- The matching 2048 rows of kernel 0's result. -/
abbrev yrows (c : Dev nD) (t : Fin cfg1.N) : Vec F S2048x1024 .bf16 := iblk1 V c 1 t
/-- The row block of the first 8192 rows of `x`. -/
abbrev xself (c : Dev nD) (t : Fin cfg1.N) : Vec F S512x1024 .f32 := iblk1 V c 2 t
/-- The transposed self weights. -/
abbrev wsT (c : Dev nD) (t : Fin cfg1.N) : Vec F S1024x1024 .bf16 := iblk1 V c 3 t

/-- The running sum in the scratch after point `n`: the point's product added to what the point before left,
    or to the cleared scratch when `n` starts a reduction (a multiple of 8). -/
def accAt (c : Dev nD) : (n : ℕ) → n < cfg1.N → Vec F S512x1024 .f32
  | 0, hn => k1_pay2 (adj V c ⟨0, hn⟩) (k1_pay1 (F := F)) (yrows V c ⟨0, hn⟩)
  | n + 1, hn =>
    if (n + 1) % 8 = 0 then k1_pay2 (adj V c ⟨n + 1, hn⟩) (k1_pay1 (F := F)) (yrows V c ⟨n + 1, hn⟩)
    else k1_pay2 (adj V c ⟨n + 1, hn⟩) (accAt c n (Nat.lt_of_succ_lt hn)) (yrows V c ⟨n + 1, hn⟩)

/-- At a point that starts a reduction the sum starts from the cleared scratch. -/
theorem accAt_start (c : Dev nD) (t : Fin cfg1.N) (h : t.val % 8 = 0) :
    accAt V c t.val t.isLt = k1_pay2 (adj V c t) (k1_pay1 (F := F)) (yrows V c t) := by
  obtain ⟨n, hn⟩ := t
  cases n with
  | zero => rfl
  | succ n => exact if_pos h

/-- At any other point it continues what the point before left. -/
theorem accAt_step (c : Dev nD) (t : Fin cfg1.N) (h : ¬t.val % 8 = 0) :
    accAt V c t.val t.isLt = k1_pay2 (adj V c t) (accAt V c (t.val - 1) (Nat.lt_of_le_of_lt (Nat.sub_le _ _) t.isLt)) (yrows V c t) := by
  obtain ⟨n, hn⟩ := t
  cases n with
  | zero => exact absurd (Nat.zero_mod _) h
  | succ n => exact if_neg h

/-- What kernel 1 stores as its output block at point `t` (it does so only at the last reduction step, where the
    block is written back): the running sum plus the self term. -/
def outAt (c : Dev nD) (t : Fin cfg1.N) : Vec F S512x1024 .f32 :=
  k1_pay3 (xself V c t) (wsT V c t) (accAt V c t.val t.isLt)

/-- The scratch the kernel carries from point to point. -/
abbrev accM : Memref sig .tc .vmem S512x1024 .f32 := Memref.whole cc1_scratch0

/-- The scoped buffers kernel 1 never touches (kernel 0's staging buffers), each whole at some contents, beside what
    is said of the scratch (`X`): the scoped rest of kernel 1 with the scratch's place left open. -/
def withIdle (c : Dev nD) (X : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ X)

/-- Kernel 1's invariant before position `n`: before the first point the scoped rest and the generator register at
    anything; afterwards the scratch at the running sum the point before left, the untouched scoped buffers and the
    generator register at anything. -/
def accInv (c : Dev nD) : (n : ℕ) → n ≤ cfg1.N → sProp 𝕄
  | 0, _ => Pipeline.ΦA spec1 c
  | n + 1, hn => iprop(withIdle c (owns (c : Thread nD τ) accM fullShare (accAt V c n hn)) ∗ (∃ r, prngReg c r))

theorem accInv_zero (c : Dev nD) (n : ℕ) (h : n ≤ cfg1.N) (hz : n = 0) : accInv V c n h = Pipeline.ΦA spec1 c := by
  subst hz; rfl
theorem accInv_succ (c : Dev nD) (n : ℕ) (hn : n < cfg1.N) :
    accInv V c (n + 1) hn = iprop(withIdle c (owns (c : Thread nD τ) accM fullShare (accAt V c n hn)) ∗ (∃ r, prngReg c r)) := rfl
theorem accInv_pos (c : Dev nD) (n : ℕ) (h : n ≤ cfg1.N) (hz : n ≠ 0) :
    accInv V c n h = iprop(withIdle c (owns (c : Thread nD τ) accM fullShare (accAt V c (n - 1) (by omega))) ∗ (∃ r, prngReg c r)) := by
  cases n with
  | zero => exact absurd rfl hz
  | succ n => rfl

/-- The class invariant with the scratch named: the scoped rest is the untouched buffers beside the scratch at some
    contents. -/
theorem PhiA1_eq (c : Dev nD) :
    (Pipeline.ΦA spec1 c : sProp 𝕄) = iprop(withIdle c iprop(∃ d, owns (c : Thread nD τ) accM fullShare d) ∗ (∃ r, prngReg c r)) := by
  unfold Pipeline.ΦA withIdle; rw [scopedRest1_eq]; simp only [accM, owns_whole]; try rfl

/-- Kernel 1's proof data: arrays as found, inputs left in place, the output block `outAt`, the invariant `accInv`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t
  Φ t := accInv V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt V c t := by dsimp only [dat1]

end Cert.KernelIdeal.Sage

end
-- ==== Proof.KI.Conts.lean ====
/-
  The buffers' contents at the boundaries of @main's three items, per core: at launch; after the five host
  operations (two transposed and narrowed weight matrices, the first 8192 rows of `x`); after kernel 0, whose
  output array holds what its write-backs leave; after kernel 1 likewise. No item writes an argument, so each
  argument array is read back through the three steps to its launch contents; the result array is what kernel 1's
  write-backs leave, and kernel 1 finds in kernel 0's output array what kernel 0's write-backs left.
-/
import proofs.«163849_j14001593385221_1_alg».proof.Proof.KI.Data

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations (kernel 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At kernel 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (kernel 1's entry). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At kernel 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (the end of @main). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What the boundaries hold at the buffers the claims read -/

/-- No host operation writes `b`: it holds after them what it held at launch. -/
theorem W1_of_not_written (c : Dev nD) (b : Ref sig .tc)
    (hb : b ≠ main_v0 ∧ b ≠ main_v1 ∧ b ≠ main_v2 ∧ b ≠ main_v3 ∧ b ≠ main_v4) :
    W1 m ρ c (Proc.devRef .tc b) = m ((c : Thread nD τ).loc b) := by
  obtain ⟨h0, h1, h2, h3, h4⟩ := hb
  exact (StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2,
      StableHlo.devRef_ne_of_ne h3, StableHlo.devRef_ne_of_ne h4⟩))).trans rfl

/-- The result array at the end: what kernel 1's write-backs leave. -/
theorem W3_result (c : Dev nD) : W3 m ρ c (Proc.devRef .tc main_v6) = (dat1 (V2 m ρ) c).arrAt 4 cfg1.N :=
  W3_arr m ρ c 4

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) :=
        (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = m ((c : Thread nD τ).loc main_arg0) := W1_of_not_written m ρ c main_arg0 (by decide)
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) :=
        (W2_arr m ρ c 0).trans (((dat0 (V1 m ρ) c).arrAt_in 0 rfl _).trans (A_eq0 (V1 m ρ) c 0))
    _ = m ((c : Thread nD τ).loc main_arg1) := W1_of_not_written m ρ c main_arg1 (by decide)
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := W1_of_not_written m ρ c main_arg2 (by decide)
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_of_not_written m ρ c main_arg3 (by decide)

end Cert.KernelIdeal.Sage

end
-- ==== Proof.KI.Body0.lean ====
/-
  Kernel 0's body as a triple: on whole staging buffers holding a block of `x` and the transposed neighbour
  weights it ends with the output buffer holding their matrix product (the payload of its one store), the inputs
  untouched.
-/
import proofs.«163849_j14001593385221_1_alg».proof.Proof.Gen.KernelIdeal.Launch
import proofs.«163849_j14001593385221_1_alg».proof.Proof.Gen.KernelIdeal.Skeleton
import proofs.«163849_j14001593385221_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's accesses are all at offsets zero of the whole buffer. -/
private theorem off_zero : (![0, 0] : Fin S1024x1024.rank → ℕ) = fun _ => 0 := by funext a; fin_cases a <;> rfl

/-- A load through the whole-shape rectangle at zero offsets reads the buffer's contents. -/
private theorem load_whole {e : EltTy} (v : View sig .tc .vmem S1024x1024 e) (f : v.ty.Contents (Elt F)) :
    v.readAt (Elt F) (Rect.unit (s := S1024x1024) ![0, 0] S1024x1024.size inb_S1024x1024_S1024x1024_0_0).toLoadRect f
      = v.read (Elt F) f := by
  rw [View.readAt_eq_ld, View.ld_unit_zero (S := S1024x1024) off_zero]

/-- That rectangle covers every index of the buffer. -/
private theorem cover_whole {e : EltTy} (w : S1024x1024.Idx → Elt F e) (y : S1024x1024.Idx) :
    ∃ p ∈ ([⟨Rect.unit (s := S1024x1024) ![0, 0] S1024x1024.size inb_S1024x1024_S1024x1024_0_0, w⟩] :
        List (View.Piece (Elt F) S1024x1024 e)), y ∈ p.1.set :=
  ⟨_, List.mem_singleton_self _, View.mem_set_unit_zero (S := S1024x1024) off_zero inb_S1024x1024_S1024x1024_0_0 y⟩

/-- So one store through it leaves its payload, whatever the buffer held. -/
private theorem store_whole {e : EltTy} (v : View sig .tc .vmem S1024x1024 e) (f : v.ty.Contents (Elt F))
    (w : S1024x1024.Idx → Elt F e) :
    v.read (Elt F) (v.writes (Elt F) f
      [⟨Rect.unit (s := S1024x1024) ![0, 0] S1024x1024.size inb_S1024x1024_S1024x1024_0_0, w⟩]) = w := by
  rw [View.read_writes_eq_canon _ _ _ (cover_whole w), View.canon_unit_zero (S := S1024x1024) off_zero]

/-- Kernel 0's body, the inputs' buffers at `x0`, `x1` and the output's at anything, runs to the inputs' as they
    were and the output's at the product `k0_pay1 x0 x1`. -/
theorem sound_kernel0 (c : Dev nD) (E : Set ℕ) (i : grid0.Coords)
    (arg1 : Memref sig .tc .vmem S1024x1024 .f32) (harg1 : arg1.IsWhole)
    (arg2 : Memref sig .tc .vmem S1024x1024 .bf16) (harg2 : arg2.IsWhole)
    (arg3 : Memref sig .tc .vmem S1024x1024 .bf16) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store is through the whole-shape rectangle at zero offsets: it leaves its payload; the loads through the
  -- same rectangle read the whole contents
  rw [store_whole, load_whole, load_whole]

end Cert.KernelIdeal.Sage

end
-- ==== Proof.KI.Oblig0.lean ====
/-
  Kernel 0's body obligation: at every grid point the input windows' staging buffers hold the point's blocks
  (fetched there or left from the point before, the block index unchanged), so the body's triple applies and
  leaves the output window's buffer at the product the proof data name; the invariant passes through untouched.
-/
import proofs.«163849_j14001593385221_1_alg».proof.Proof.KI.Data
import proofs.«163849_j14001593385221_1_alg».proof.Proof.KI.Body0

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each input window's current buffer holds its block at every point. -/
theorem before0_0 (c : Dev nD) (t : Fin cfg0.N) (d) : (dat0 V c).before 0 t d = iblk0 V c 0 t := by
  -- an input window the body leaves in place holds what a fetch at the point puts there, fetched there or not;
  -- the window is uncut, so that is its block of the array as found
  refine ((dat0 V c).before_in_eq_fetched 0 rfl (fun _ => rfl) (fun _ _ _ => rfl) (fun t => ?_) t d).trans ?_
  · rw [after0_0]; unfold Dat.blockOf iblk0; rw [A_eq0]; try rfl
  · unfold Dat.fetched Dat.blockOf iblk0; rw [A_eq0]; try rfl
theorem before0_1 (c : Dev nD) (t : Fin cfg0.N) (d) : (dat0 V c).before 1 t d = iblk0 V c 1 t := by
  refine ((dat0 V c).before_in_eq_fetched 1 rfl (fun _ => rfl) (fun _ _ _ => rfl) (fun t => ?_) t d).trans ?_
  · rw [after0_1]; unfold Dat.blockOf iblk0; rw [A_eq0]; try rfl
  · unfold Dat.fetched Dat.blockOf iblk0; rw [A_eq0]; try rfl

/-- The library's body obligation for kernel 0, at every point. -/
theorem body_obligation0 (c : Dev nD) : BodyObligation (dat0 (F := F) V c) (defs₀ (F := F)) Variants.none () Set.univ := by
  intro t
  rw [bigSep_W0, bigSep_W0]
  -- no window is forgotten and the configuration states no idle point: the cases reduce to the plain buffers;
  -- the invariant and what the core owes are the same before and after the point
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.castSucc ∗ (dat0 V c).owesAt () t.castSucc
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)))
  -- the input buffers hold the point's blocks, and the body leaves them and the product
  simp only [before0_0, before0_1, after0_0, after0_1, after0_2]
  unfold yblk bodyAt0
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Sage

end
-- ==== Proof.KI.Body1.lean ====
/-
  Kernel 1's body as three triples, one per position along the reduction axis: at the first step the scratch is
  cleared and then holds the step's product; at a middle step the product is added to what the scratch held; at
  the last step the same, and the output buffer is stored with the sum plus the self term. Which step a grid point
  is at is decided by its index modulo 8.
-/
import proofs.«163849_j14001593385221_1_alg».proof.Proof.Gen.KernelIdeal.Launch
import proofs.«163849_j14001593385221_1_alg».proof.Proof.Gen.KernelIdeal.Skeleton
import proofs.«163849_j14001593385221_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first condition (reduction step 0), from the grid coordinates. -/
abbrev isFirst (i : grid1.Coords) : Prop :=
  (Scalar.cmpi .ne (Scalar.extui (Scalar.cmpi .eq (BitVec.ofNat 32 (i 1).val) 0#32)) 0#32) = 1#1
/-- It holds at the points ≡ 0 (mod 8). -/
theorem isFirst_iff : ∀ t : Fin cfg1.N, isFirst (grid1.coords t) ↔ t.val % 8 = 0 :=
  (by decide +kernel : ∀ t : Fin grid1.N, isFirst (grid1.coords t) ↔ t.val % 8 = 0)
/-- The body's second condition (reduction step 7, the last). -/
abbrev isLast (i : grid1.Coords) : Prop := k1_cond2 i = 1#1
/-- It holds at the points ≡ 7 (mod 8). -/
theorem isLast_iff : ∀ t : Fin cfg1.N, isLast (grid1.coords t) ↔ t.val % 8 = 7 :=
  (by decide +kernel : ∀ t : Fin grid1.N, isLast (grid1.coords t) ↔ t.val % 8 = 7)

/-- The zero offsets of a whole-buffer rectangle of rank 2, as a constant function. -/
private theorem zeros2 : (![0, 0] : Fin 2 → Nat) = fun _ => 0 := funext fun a => by fin_cases a <;> rfl

/-- After a store of the whole 512 x 1024 shape a buffer reads as what was stored, whatever it held and whatever was
    stored before. -/
private theorem read_store_whole {m : Memref sig .tc .vmem S512x1024 .f32} (f : m.view.ty.Contents (Elt F))
    (w : Vec F S512x1024 .f32) (L : List (View.Piece (Elt F) S512x1024 .f32)) :
    m.view.read (Elt F) (m.view.writes (Elt F) f
      (⟨Rect.unit (s := S512x1024) ![0, 0] S512x1024.size inb_S512x1024_S512x1024_0_0, w⟩ :: L)) = w :=
  (View.read_writes_eq_canon m.view f _ (fun y =>
    ⟨⟨Rect.unit (s := S512x1024) ![0, 0] S512x1024.size inb_S512x1024_S512x1024_0_0, w⟩, List.mem_cons.mpr (Or.inl rfl),
      View.mem_set_unit_zero (S := S512x1024) zeros2 inb_S512x1024_S512x1024_0_0 y⟩)).trans
    (View.canon_cons_unit_zero (S := S512x1024) zeros2 _ w L)

/-- A load of the whole adjacency block reads its contents. -/
private theorem readAt_adj {m : Memref sig .tc .vmem S512x2048 .f32} (h : m.IsWhole) (X : Vec F S512x2048 .f32) :
    View.readAt (Elt F) m.view (Rect.unit (s := S512x2048) ![0, 0] S512x2048.size inb_S512x2048_S512x2048_0_0).toLoadRect
      (h.unread X) = X := by
  rw [View.readAt_eq_ld, h.read_unread, View.ld_unit_zero (S := S512x2048) zeros2]

/-- A load of the whole block of rows reads its contents. -/
private theorem readAt_rows {m : Memref sig .tc .vmem S2048x1024 .bf16} (h : m.IsWhole) (X : Vec F S2048x1024 .bf16) :
    View.readAt (Elt F) m.view (Rect.unit (s := S2048x1024) ![0, 0] S2048x1024.size inb_S2048x1024_S2048x1024_0_0).toLoadRect
      (h.unread X) = X := by
  rw [View.readAt_eq_ld, h.read_unread, View.ld_unit_zero (S := S2048x1024) zeros2]

/-- A load of a whole 512 x 1024 buffer reads its contents. -/
private theorem readAt_acc {m : Memref sig .tc .vmem S512x1024 .f32} (h : m.IsWhole) (X : Vec F S512x1024 .f32) :
    View.readAt (Elt F) m.view (Rect.unit (s := S512x1024) ![0, 0] S512x1024.size inb_S512x1024_S512x1024_0_0).toLoadRect
      (h.unread X) = X := by
  rw [View.readAt_eq_ld, h.read_unread, View.ld_unit_zero (S := S512x1024) zeros2]

/-- A load of the whole block of self weights reads its contents. -/
private theorem readAt_wself {m : Memref sig .tc .vmem S1024x1024 .bf16} (h : m.IsWhole) (X : Vec F S1024x1024 .bf16) :
    View.readAt (Elt F) m.view (Rect.unit (s := S1024x1024) ![0, 0] S1024x1024.size inb_S1024x1024_S1024x1024_0_0).toLoadRect
      (h.unread X) = X := by
  rw [View.readAt_eq_ld, h.read_unread, View.ld_unit_zero (S := S1024x1024) zeros2]

set_option maxHeartbeats 1000000 in
/-- FIRST STEP: the scratch at anything; it ends at the step's product added to the cleared scratch. -/
theorem sound_kernel1_first (c : Dev nD) (E : Set ℕ) (i : grid1.Coords)
    (arg2 : Memref sig .tc .vmem S512x2048 .f32) (harg2 : arg2.IsWhole) (arg3 : Memref sig .tc .vmem S2048x1024 .bf16) (harg3 : arg3.IsWhole)
    (arg4 : Memref sig .tc .vmem S512x1024 .f32) (harg4 : arg4.IsWhole) (arg5 : Memref sig .tc .vmem S1024x1024 .bf16) (harg5 : arg5.IsWhole)
    (arg6 : Memref sig .tc .vmem S512x1024 .f32) (harg6 : arg6.IsWhole) (arg7 : Memref sig .tc .vmem S512x1024 .f32) (harg7 : arg7.IsWhole)
    (hc0 : isFirst i) (hc1 : ¬isLast i)
    (x0 : Vec F S512x2048 .f32) (x1 : Vec F S2048x1024 .bf16) (K : PUnit → sProp 𝕄) :
    iprop(owns (c : Thread nD τ) arg2 fullShare x0 ∗ owns (c : Thread nD τ) arg3 fullShare x1 ∗ (∃ d, owns (c : Thread nD τ) arg7 fullShare d)
        ∗ (iprop(owns (c : Thread nD τ) arg2 fullShare x0 ∗ owns (c : Thread nD τ) arg3 fullShare x1
            ∗ owns (c : Thread nD τ) arg7 fullShare (k1_pay2 x0 (k1_pay1 (F := F)) x1)) -∗ K ⟨⟩))
      ⊢ wp frame (wpE (defs₀ (F := F)) Variants.none c none) E (cc1__sage_kernel i arg2 harg2 arg3 harg3 arg4 harg4 arg5 harg5 arg6 harg6 arg7 harg7) K := by
  simp only [cc1__sage_kernel_eq_skeleton]; unfold cc1__sage_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_run_names
  rw [read_store_whole, readAt_adj harg2, readAt_rows harg3, View.readCov_unit_zero (S := S512x1024) _ zeros2]

set_option maxHeartbeats 1000000 in
/-- MIDDLE STEP: the scratch at `s`; it ends at the step's product added to `s`. -/
theorem sound_kernel1_mid (c : Dev nD) (E : Set ℕ) (i : grid1.Coords)
    (arg2 : Memref sig .tc .vmem S512x2048 .f32) (harg2 : arg2.IsWhole) (arg3 : Memref sig .tc .vmem S2048x1024 .bf16) (harg3 : arg3.IsWhole)
    (arg4 : Memref sig .tc .vmem S512x1024 .f32) (harg4 : arg4.IsWhole) (arg5 : Memref sig .tc .vmem S1024x1024 .bf16) (harg5 : arg5.IsWhole)
    (arg6 : Memref sig .tc .vmem S512x1024 .f32) (harg6 : arg6.IsWhole) (arg7 : Memref sig .tc .vmem S512x1024 .f32) (harg7 : arg7.IsWhole)
    (hc0 : ¬isFirst i) (hc1 : ¬isLast i)
    (x0 : Vec F S512x2048 .f32) (x1 : Vec F S2048x1024 .bf16) (s : Vec F S512x1024 .f32) (K : PUnit → sProp 𝕄) :
    iprop(owns (c : Thread nD τ) arg2 fullShare x0 ∗ owns (c : Thread nD τ) arg3 fullShare x1 ∗ owns (c : Thread nD τ) arg7 fullShare s
        ∗ (iprop(owns (c : Thread nD τ) arg2 fullShare x0 ∗ owns (c : Thread nD τ) arg3 fullShare x1
            ∗ owns (c : Thread nD τ) arg7 fullShare (k1_pay2 x0 s x1)) -∗ K ⟨⟩))
      ⊢ wp frame (wpE (defs₀ (F := F)) Variants.none c none) E (cc1__sage_kernel i arg2 harg2 arg3 harg3 arg4 harg4 arg5 harg5 arg6 harg6 arg7 harg7) K := by
  simp only [cc1__sage_kernel_eq_skeleton]; unfold cc1__sage_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  sl_unfold_run_names
  rw [read_store_whole, readAt_adj harg2, readAt_rows harg3, readAt_acc harg7]

set_option maxHeartbeats 1000000 in
/-- LAST STEP: as a middle step, and the output buffer (at anything) ends at the new sum plus the self term. -/
theorem sound_kernel1_last (c : Dev nD) (E : Set ℕ) (i : grid1.Coords)
    (arg2 : Memref sig .tc .vmem S512x2048 .f32) (harg2 : arg2.IsWhole) (arg3 : Memref sig .tc .vmem S2048x1024 .bf16) (harg3 : arg3.IsWhole)
    (arg4 : Memref sig .tc .vmem S512x1024 .f32) (harg4 : arg4.IsWhole) (arg5 : Memref sig .tc .vmem S1024x1024 .bf16) (harg5 : arg5.IsWhole)
    (arg6 : Memref sig .tc .vmem S512x1024 .f32) (harg6 : arg6.IsWhole) (arg7 : Memref sig .tc .vmem S512x1024 .f32) (harg7 : arg7.IsWhole)
    (hc0 : ¬isFirst i) (hc1 : isLast i)
    (x0 : Vec F S512x2048 .f32) (x1 : Vec F S2048x1024 .bf16) (x2 : Vec F S512x1024 .f32) (x3 : Vec F S1024x1024 .bf16)
    (s : Vec F S512x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay3 x2 x3 (k1_pay2 x0 s x1))
            ∗ owns (c : Thread nD τ) arg7 fullShare (k1_pay2 x0 s x1)) -∗ K ⟨⟩))
      ⊢ wp frame (wpE (defs₀ (F := F)) Variants.none c none) E (cc1__sage_kernel i arg2 harg2 arg3 harg3 arg4 harg4 arg5 harg5 arg6 harg6 arg7 harg7) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg2.eq_unread hf0; obtain rfl := harg3.eq_unread hf1; obtain rfl := harg4.eq_unread hf2
  obtain rfl := harg5.eq_unread hf3; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [read_store_whole, readAt_acc harg4, readAt_wself harg5, View.readCov_unit_zero (S := S512x1024) _ zeros2,
      readAt_adj harg2, readAt_rows harg3, readAt_acc harg7]
  iexists _; isplitr
  swap; · iexact HS0
  ipureintro
  sl_unfold_run_names
  rw [read_store_whole, readAt_adj harg2, readAt_rows harg3, readAt_acc harg7]

end Cert.KernelIdeal.Sage

end
-- ==== Proof.KI.Oblig1.lean ====
/-
  Kernel 1's body obligation. At every grid point the four input windows' buffers hold the point's blocks. By the
  point's index modulo 8 it is a first, a middle or the last reduction step; the invariant hands the body the
  scratch at the running sum the point before left (at anything before the first point), the step's triple runs,
  and the scratch goes back into the invariant at this point's sum. The output window is idle except at the last
  step, where it is stored whole and written back.
-/
import proofs.«163849_j14001593385221_1_alg».proof.Proof.KI.Data
import proofs.«163849_j14001593385221_1_alg».proof.Proof.KI.Body1

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each input window's current buffer holds its block at every point. -/
theorem before1_0 (c : Dev nD) (t : Fin cfg1.N) (d) : (dat1 V c).before 0 t d = iblk1 V c 0 t := by
  exact ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t := by
  exact ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t := by
  exact ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t := by
  exact ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## Where the windows are idle, and which step a point is -/

/-- The four input windows are never idle. -/
private theorem liveAt1_0 (t : Fin cfg1.N) : cfg1.idle 0 (grid1.coords t) = false := rfl
private theorem liveAt1_1 (t : Fin cfg1.N) : cfg1.idle 1 (grid1.coords t) = false := rfl
private theorem liveAt1_2 (t : Fin cfg1.N) : cfg1.idle 2 (grid1.coords t) = false := rfl
private theorem liveAt1_3 (t : Fin cfg1.N) : cfg1.idle 3 (grid1.coords t) = false := rfl
/-- The output window is idle exactly where the last-step condition fails, -/
private theorem idleAt1_4 (t : Fin cfg1.N) (h : ¬isLast (grid1.coords t)) : cfg1.idle 4 (grid1.coords t) = true := by
  show (!(k1_cond2 (grid1.coords t) == 1#1)) = true
  rw [Bool.not_eq_true', beq_eq_false_iff_ne]; exact h
/-- live where it holds, -/
private theorem liveAt1_4 (t : Fin cfg1.N) (h : isLast (grid1.coords t)) : cfg1.idle 4 (grid1.coords t) = false := by
  show (!(k1_cond2 (grid1.coords t) == 1#1)) = false
  rw [Bool.not_eq_false', beq_iff_eq]; exact h
/-- and not written back where it fails. -/
private theorem noFlush1_4 (t : Fin cfg1.N) (h : ¬isLast (grid1.coords t)) : (cfg1.win 4).flush t = false :=
  Bool.eq_false_iff.mpr fun hf => h ((isLast_iff t).mpr ((flush1_4 t).mp hf))

/-- Each window's current buffer at point `t`, as the pipeline passes it to the body, and its wholeness. -/
private abbrev ms1_0 (t : Fin cfg1.N) : Memref sig .tc .vmem S512x2048 .f32 := win1_0.stage (cfg1.slots t 0)
private abbrev hs1_0 (t : Fin cfg1.N) : (ms1_0 t).IsWhole := hstage1_0 ((cfg1.slots t 0).cast nbuf1_0)
private abbrev ms1_1 (t : Fin cfg1.N) : Memref sig .tc .vmem S2048x1024 .bf16 := win1_1.stage (cfg1.slots t 1)
private abbrev hs1_1 (t : Fin cfg1.N) : (ms1_1 t).IsWhole := hstage1_1 ((cfg1.slots t 1).cast nbuf1_1)
private abbrev ms1_2 (t : Fin cfg1.N) : Memref sig .tc .vmem S512x1024 .f32 := win1_2.stage (cfg1.slots t 2)
private abbrev hs1_2 (t : Fin cfg1.N) : (ms1_2 t).IsWhole := hstage1_2 ((cfg1.slots t 2).cast nbuf1_2)
private abbrev ms1_3 (t : Fin cfg1.N) : Memref sig .tc .vmem S1024x1024 .bf16 := win1_3.stage (cfg1.slots t 3)
private abbrev hs1_3 (t : Fin cfg1.N) : (ms1_3 t).IsWhole := hstage1_3 ((cfg1.slots t 3).cast nbuf1_3)
private abbrev ms1_4 (t : Fin cfg1.N) : Memref sig .tc .vmem S512x1024 .f32 := win1_4.stage (cfg1.slots t 4)
private abbrev hs1_4 (t : Fin cfg1.N) : (ms1_4 t).IsWhole := hstage1_4 ((cfg1.slots t 4).cast nbuf1_4)

/-- The invariant at a point's start and at its end, restated at the point's index. -/
private theorem Phi1_castSucc (c : Dev nD) (t : Fin cfg1.N) :
    (dat1 V c).Φ t.castSucc = accInv V c t.val (Nat.le_of_lt t.isLt) := by
  dsimp only [dat1]; simp only [Fin.coe_castSucc]
private theorem Phi1_succ (c : Dev nD) (t : Fin cfg1.N) :
    (dat1 V c).Φ t.succ = accInv V c (t.val + 1) t.isLt := by
  dsimp only [dat1]; simp only [Fin.val_succ]

/-- What the body is called with at point `t`: the invariant, what the core owes, the five windows' buffers, -/
private def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
private def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- An input window's buffer is left at its block. -/
private theorem leaves1_0 (c : Dev nD) (t : Fin cfg1.N) :
    (dat1 V c).leavesExact 0 t = owns (c : Thread nD τ) (ms1_0 t) fullShare (iblk1 V c 0 t) := by
  rw [← after1_0]
private theorem leaves1_1 (c : Dev nD) (t : Fin cfg1.N) :
    (dat1 V c).leavesExact 1 t = owns (c : Thread nD τ) (ms1_1 t) fullShare (iblk1 V c 1 t) := by
  rw [← after1_1]
private theorem leaves1_2 (c : Dev nD) (t : Fin cfg1.N) :
    (dat1 V c).leavesExact 2 t = owns (c : Thread nD τ) (ms1_2 t) fullShare (iblk1 V c 2 t) := by
  rw [← after1_2]
private theorem leaves1_3 (c : Dev nD) (t : Fin cfg1.N) :
    (dat1 V c).leavesExact 3 t = owns (c : Thread nD τ) (ms1_3 t) fullShare (iblk1 V c 3 t) := by
  rw [← after1_3]
/-- The output window's buffer: handed back as found away from the last step, at the stored block at it. -/
private theorem leaves1_4_idle (c : Dev nD) (t : Fin cfg1.N) (h : ¬isLast (grid1.coords t)) :
    (dat1 V c).leavesExact 4 t = iprop(∃ d, owns (c : Thread nD τ) (ms1_4 t) fullShare ((dat1 V c).before 4 t d)) :=
  Dat.leavesExact_idle (dat1 V c) 4 t (idleAt1_4 t h) (noFlush1_4 t h)
private theorem leaves1_4_last (c : Dev nD) (t : Fin cfg1.N) (h : isLast (grid1.coords t)) :
    (dat1 V c).leavesExact 4 t = owns (c : Thread nD τ) (ms1_4 t) fullShare (outAt V c t) := by
  rw [← after1_4]; unfold Dat.leavesExact; rw [liveAt1_4 t h]

/-- The body at any point. The input windows' buffers hold the point's blocks; the point's index modulo 8 says which
    step it is. At a first step the scratch is handed over at anything (before the very first point out of the class
    invariant, later at the sum the reduction before ended with) and comes back at the step's product; at a middle step
    it is handed over at the sum the point before left and comes back with the product added; at the last step the
    output buffer too is handed over and comes back at the total plus the self term. Away from the last step the
    output buffer goes back as it was found. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [Phi1_succ, accInv_succ, Phi1_castSucc, leaves1_0, leaves1_1, leaves1_2, leaves1_3]
  by_cases h0 : t.val % 8 = 0
  · have hfirst : isFirst (grid1.coords t) := (isFirst_iff t).mpr h0
    have hlast : ¬isLast (grid1.coords t) := fun h => by have := (isLast_iff t).mp h; omega
    rw [leaves1_4_idle V c t hlast, accAt_start V c t h0]
    by_cases hz : t.val = 0
    · rw [accInv_zero V c _ _ hz, PhiA1_eq]
      unfold withIdle
      iintro ⟨⟨⟨H0, H1, H2, H3, H4, HS⟩, Hg⟩, Ho, ⟨%d0, B0⟩, ⟨%d1, B1⟩, ⟨%d2, B2⟩, ⟨%d3, B3⟩, ⟨%d4, B4⟩⟩
      iapply (sound_kernel1_first c Set.univ (grid1.coords t) (ms1_0 t) (hs1_0 t) (ms1_1 t) (hs1_1 t) (ms1_2 t) (hs1_2 t) (ms1_3 t) (hs1_3 t) (ms1_4 t) (hs1_4 t) accM (Memref.isWhole_whole _) hfirst hlast (adj V c t) (yrows V c t) _)
      isplitl [B0]; · iexact B0
      isplitl [B1]; · iexact B1
      isplitl [HS]; · iexact HS
      iintro ⟨B0, B1, HS⟩
      isplitl [H0 H1 H2 H3 H4 HS Hg]
      · isplitr [Hg]
        · isplitl [H0]; · iexact H0
          isplitl [H1]; · iexact H1
          isplitl [H2]; · iexact H2
          isplitl [H3]; · iexact H3
          isplitl [H4]; · iexact H4
          iexact HS
        · iexact Hg
      isplitl [Ho]; · iexact Ho
      isplitl [B0]; · iexact B0
      isplitl [B1]; · iexact B1
      isplitl [B2]; · iexact B2
      isplitl [B3]; · iexact B3
      iexists _; iexact B4
    · rw [accInv_pos V c _ _ hz]
      unfold withIdle
      iintro ⟨⟨⟨H0, H1, H2, H3, H4, HS⟩, Hg⟩, Ho, ⟨%d0, B0⟩, ⟨%d1, B1⟩, ⟨%d2, B2⟩, ⟨%d3, B3⟩, ⟨%d4, B4⟩⟩
      iapply (sound_kernel1_first c Set.univ (grid1.coords t) (ms1_0 t) (hs1_0 t) (ms1_1 t) (hs1_1 t) (ms1_2 t) (hs1_2 t) (ms1_3 t) (hs1_3 t) (ms1_4 t) (hs1_4 t) accM (Memref.isWhole_whole _) hfirst hlast (adj V c t) (yrows V c t) _)
      isplitl [B0]; · iexact B0
      isplitl [B1]; · iexact B1
      isplitl [HS]; · iexists _; iexact HS
      iintro ⟨B0, B1, HS⟩
      isplitl [H0 H1 H2 H3 H4 HS Hg]
      · isplitr [Hg]
        · isplitl [H0]; · iexact H0
          isplitl [H1]; · iexact H1
          isplitl [H2]; · iexact H2
          isplitl [H3]; · iexact H3
          isplitl [H4]; · iexact H4
          iexact HS
        · iexact Hg
      isplitl [Ho]; · iexact Ho
      isplitl [B0]; · iexact B0
      isplitl [B1]; · iexact B1
      isplitl [B2]; · iexact B2
      isplitl [B3]; · iexact B3
      iexists _; iexact B4
  · have hfirst : ¬isFirst (grid1.coords t) := fun h => h0 ((isFirst_iff t).mp h)
    have hz : t.val ≠ 0 := fun h => h0 (by rw [h])
    rw [accAt_step V c t h0, accInv_pos V c _ _ hz]
    by_cases h1 : t.val % 8 = 7
    · have hlast : isLast (grid1.coords t) := (isLast_iff t).mpr h1
      rw [leaves1_4_last V c t hlast]
      unfold outAt
      rw [accAt_step V c t h0]
      unfold withIdle
      iintro ⟨⟨⟨H0, H1, H2, H3, H4, HS⟩, Hg⟩, Ho, ⟨%d0, B0⟩, ⟨%d1, B1⟩, ⟨%d2, B2⟩, ⟨%d3, B3⟩, ⟨%d4, B4⟩⟩
      iapply (sound_kernel1_last c Set.univ (grid1.coords t) (ms1_0 t) (hs1_0 t) (ms1_1 t) (hs1_1 t) (ms1_2 t) (hs1_2 t) (ms1_3 t) (hs1_3 t) (ms1_4 t) (hs1_4 t) accM (Memref.isWhole_whole _) hfirst hlast (adj V c t) (yrows V c t) (xself V c t) (wsT V c t)
        (accAt V c (t.val - 1) (Nat.lt_of_le_of_lt (Nat.sub_le _ _) t.isLt)) _)
      isplitl [B0]; · iexact B0
      isplitl [B1]; · iexact B1
      isplitl [B2]; · iexact B2
      isplitl [B3]; · iexact B3
      isplitl [B4]; · iexists _; iexact B4
      isplitl [HS]; · iexact HS
      iintro ⟨B0, B1, B2, B3, B4, HS⟩
      isplitl [H0 H1 H2 H3 H4 HS Hg]
      · isplitr [Hg]
        · isplitl [H0]; · iexact H0
          isplitl [H1]; · iexact H1
          isplitl [H2]; · iexact H2
          isplitl [H3]; · iexact H3
          isplitl [H4]; · iexact H4
          iexact HS
        · iexact Hg
      isplitl [Ho]; · iexact Ho
      isplitl [B0]; · iexact B0
      isplitl [B1]; · iexact B1
      isplitl [B2]; · iexact B2
      isplitl [B3]; · iexact B3
      iexact B4
    · have hlast : ¬isLast (grid1.coords t) := fun h => h1 ((isLast_iff t).mp h)
      rw [leaves1_4_idle V c t hlast]
      unfold withIdle
      iintro ⟨⟨⟨H0, H1, H2, H3, H4, HS⟩, Hg⟩, Ho, ⟨%d0, B0⟩, ⟨%d1, B1⟩, ⟨%d2, B2⟩, ⟨%d3, B3⟩, ⟨%d4, B4⟩⟩
      iapply (sound_kernel1_mid c Set.univ (grid1.coords t) (ms1_0 t) (hs1_0 t) (ms1_1 t) (hs1_1 t) (ms1_2 t) (hs1_2 t) (ms1_3 t) (hs1_3 t) (ms1_4 t) (hs1_4 t) accM (Memref.isWhole_whole _) hfirst hlast (adj V c t) (yrows V c t)
        (accAt V c (t.val - 1) (Nat.lt_of_le_of_lt (Nat.sub_le _ _) t.isLt)) _)
      isplitl [B0]; · iexact B0
      isplitl [B1]; · iexact B1
      isplitl [HS]; · iexact HS
      iintro ⟨B0, B1, HS⟩
      isplitl [H0 H1 H2 H3 H4 HS Hg]
      · isplitr [Hg]
        · isplitl [H0]; · iexact H0
          isplitl [H1]; · iexact H1
          isplitl [H2]; · iexact H2
          isplitl [H3]; · iexact H3
          isplitl [H4]; · iexact H4
          iexact HS
        · iexact Hg
      isplitl [Ho]; · iexact Ho
      isplitl [B0]; · iexact B0
      isplitl [B1]; · iexact B1
      isplitl [B2]; · iexact B2
      isplitl [B3]; · iexact B3
      iexists _; iexact B4

/-- The library's body obligation for kernel 1, at every point. -/
theorem body_obligation1 (c : Dev nD) : BodyObligation (dat1 (F := F) V c) (defs₀ (F := F)) Variants.none () Set.univ := by
  intro t
  rw [bigSep_W1, bigSep_W1]
  exact sound_body1 V c t

/-- What the launch hands kernel 1 is its invariant before the first point. -/
theorem inv_in1 (c : Dev nD) : Pipeline.ΦA spec1 c ⊢ (dat1 V c).Φ 0 := by
  rw [show (dat1 V c).Φ 0 = accInv V c 0 (Nat.zero_le _) from by dsimp only [dat1]; rfl, accInv_zero V c 0 _ rfl]

/-- After the last point the invariant gives the class invariant back: the scratch's contents are forgotten. -/
theorem inv_out1 (c : Dev nD) : (dat1 V c).Φ (Fin.last cfg1.N) ⊢ Pipeline.ΦA spec1 c := by
  have hN : cfg1.N = 128 := N_1
  rw [show (dat1 V c).Φ (Fin.last cfg1.N) = accInv V c (Fin.last cfg1.N).val (Nat.le_of_lt_succ (Fin.last cfg1.N).isLt) from by
    dsimp only [dat1]]
  rw [accInv_pos V c _ _ (by rw [Fin.val_last]; omega), PhiA1_eq]
  unfold withIdle
  iintro ⟨⟨H0, H1, H2, H3, H4, HS⟩, Hg⟩
  isplitr [Hg]
  · isplitl [H0]; · iexact H0
    isplitl [H1]; · iexact H1
    isplitl [H2]; · iexact H2
    isplitl [H3]; · iexact H3
    isplitl [H4]; · iexact H4
    iexists _; iexact HS
  · iexact Hg

end Cert.KernelIdeal.Sage

end
-- ==== Proof.KI.Run.lean ====
/-
  The run of @main: the host operations as one segment, each kernel as a region entered with every unscoped
  buffer at the boundary's contents and left with them at the next boundary's, the generator register and the
  core's (empty) debts riding along. Every weakly fair execution ends, and the final memory holds every unscoped
  buffer at the last boundary's contents.
-/
import proofs.«163849_j14001593385221_1_alg».proof.Proof.KI.Conts
import proofs.«163849_j14001593385221_1_alg».proof.Proof.KI.Oblig0
import proofs.«163849_j14001593385221_1_alg».proof.Proof.KI.Oblig1

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at the contents its kernel is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    debts, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh' : (hostOps0 : List (HloOp τ sig (Elt F))).Forall fun op => op.fresh = ∅ := by
  simp only [List.Forall]; repeat' constructor
/-- The last thread state without the debts: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The kernels as segments -/

set_option backward.isDefEq.respectTransparency.types false in
/-- Kernel 0 over the thread state: entered from every unscoped buffer at `W1`, left at `W2`. Its arrays are split out of
    the unscoped buffers and put back at the exit contents; the generator register goes into the class invariant and
    comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 over the thread state: entered from every unscoped buffer at `W2` (what kernel 0 left), left at `W3`.
    Its invariant before the first point is the class invariant, and after the last point gives it back (the
    scratch's contents forgotten); otherwise as kernel 0. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (inv_in1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine (inv_out1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host operations from the launch contents, then the two kernels. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
/-- @main is the run of the segments. -/
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and the
    final memory holds every unscoped buffer of every core at the last boundary's contents `W3`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c b hb => h c b hb)

end Cert.KernelIdeal.Sage

end
-- ==== Proof.KI.Ends.lean ====
/-
  What the run's final memory holds where the claims read it: the result array at what kernel 1's write-backs
  leave, each argument array at its launch contents.
-/
import proofs.«163849_j14001593385221_1_alg».proof.Proof.KI.Run

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the final state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution of @main terminates with the result array at kernel 1's final contents and the four
    arguments unchanged. -/
theorem ends : θ_run defs (onTc (τ := τ) (main (F := F))) ⟨m, fun _ => 0, ρ⟩ (fun r => ∀ c : Dev nD,
      r.2.mem ((c.tc : Thread nD τ).loc main_v6) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v6 (by decide))).trans (W3_result m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_main m ρ)

/-- The frame: the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (ends m ρ)

end Cert.KernelIdeal.Sage

end
-- ==== Proof.KI.Blocks.lean ====
/-
  Where each window's block sits in its array: kernel 0's point `t` reads rows `1024 t … 1024 t + 1023` of `x` and
  the whole weight matrix; kernel 1's point `t`, at row block `t / 8` and reduction step `t % 8`, reads rows
  `512 (t/8) …` and columns `2048 (t%8) …` of the adjacency matrix, rows `2048 (t%8) …` of kernel 0's result, rows
  `512 (t/8) …` of the first 8192 rows of `x`, and the whole self weight matrix. A block's coordinate is always
  block index times block size plus the coordinate inside the block.
-/
import proofs.«163849_j14001593385221_1_alg».proof.Proof.KI.Data
import Idealize.ShloMosaic.Lib.Pipeline.Value
import Idealize.ShloMosaic.Lib.ValueIdx

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Where kernel 0's two input blocks sit: block row `t` of `x`, the one block of the weights. -/
private theorem place0 : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Where kernel 1's four input blocks sit, at row block `t / 8` and reduction step `t % 8`. -/
private theorem place1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = 0 :=
  (by decide +kernel : ∀ t : Fin grid1.N, _)

theorem xrows_apply (c : Dev nD) (t : Fin cfg0.N) (y : S1024x1024.Idx) (i : S16384x1024.Idx)
    (h0 : (i 0).val = 1024 * t.val + (y 0).val) (h1 : (i 1).val = (y 1).val) :
    xrows V c t y = V c main_arg1 i := by
  obtain ⟨e0, e1, -, -⟩ := place0 t
  unfold xrows iblk0
  rw [View.read_apply]
  show V c main_arg1 (((cfg0.win 0).blk t).view.emb y) = V c main_arg1 i
  congr 1
  funext a
  apply Fin.ext
  match a with
  | ⟨0, _⟩ => show win0_0.index t (0 : Fin 2) * 1024 + 1 * (y 0).val = (i 0).val; rw [e0, h0]; omega
  | ⟨1, _⟩ => show win0_0.index t (1 : Fin 2) * 1024 + 1 * (y 1).val = (i 1).val; rw [e1, h1]; omega

theorem wnT_apply (c : Dev nD) (t : Fin cfg0.N) (y : S1024x1024.Idx) : wnT V c t y = V c main_v1 y := by
  obtain ⟨-, -, e0, e1⟩ := place0 t
  unfold wnT iblk0
  rw [View.read_apply]
  show V c main_v1 (((cfg0.win 1).blk t).view.emb y) = V c main_v1 y
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega

theorem adj_apply (c : Dev nD) (t : Fin cfg1.N) (y : S512x2048.Idx) (i : S8192x16384.Idx)
    (h0 : (i 0).val = 512 * (t.val / 8) + (y 0).val) (h1 : (i 1).val = 2048 * (t.val % 8) + (y 1).val) :
    adj V c t y = V c main_arg0 i := by
  obtain ⟨e0, e1, -⟩ := place1 t
  unfold adj iblk1
  rw [View.read_apply]
  show V c main_arg0 (((cfg1.win 0).blk t).view.emb y) = V c main_arg0 i
  congr 1
  funext a
  apply Fin.ext
  match a with
  | ⟨0, _⟩ => show win1_0.index t (0 : Fin 2) * 512 + 1 * (y 0).val = (i 0).val; rw [e0, h0]; omega
  | ⟨1, _⟩ => show win1_0.index t (1 : Fin 2) * 2048 + 1 * (y 1).val = (i 1).val; rw [e1, h1]; omega

theorem yrows_apply (c : Dev nD) (t : Fin cfg1.N) (y : S2048x1024.Idx) (i : S16384x1024.Idx)
    (h0 : (i 0).val = 2048 * (t.val % 8) + (y 0).val) (h1 : (i 1).val = (y 1).val) :
    yrows V c t y = V c main_v5 i := by
  obtain ⟨-, -, e0, e1, -⟩ := place1 t
  unfold yrows iblk1
  rw [View.read_apply]
  show V c main_v5 (((cfg1.win 1).blk t).view.emb y) = V c main_v5 i
  congr 1
  funext a
  apply Fin.ext
  match a with
  | ⟨0, _⟩ => show win1_1.index t (0 : Fin 2) * 2048 + 1 * (y 0).val = (i 0).val; rw [e0, h0]; omega
  | ⟨1, _⟩ => show win1_1.index t (1 : Fin 2) * 1024 + 1 * (y 1).val = (i 1).val; rw [e1, h1]; omega

theorem xself_apply (c : Dev nD) (t : Fin cfg1.N) (y : S512x1024.Idx) (i : S8192x1024.Idx)
    (h0 : (i 0).val = 512 * (t.val / 8) + (y 0).val) (h1 : (i 1).val = (y 1).val) :
    xself V c t y = V c main_v4 i := by
  obtain ⟨-, -, -, -, e0, e1, -⟩ := place1 t
  unfold xself iblk1
  rw [View.read_apply]
  show V c main_v4 (((cfg1.win 2).blk t).view.emb y) = V c main_v4 i
  congr 1
  funext a
  apply Fin.ext
  match a with
  | ⟨0, _⟩ => show win1_2.index t (0 : Fin 2) * 512 + 1 * (y 0).val = (i 0).val; rw [e0, h0]; omega
  | ⟨1, _⟩ => show win1_2.index t (1 : Fin 2) * 1024 + 1 * (y 1).val = (i 1).val; rw [e1, h1]; omega

theorem wsT_apply (c : Dev nD) (t : Fin cfg1.N) (y : S1024x1024.Idx) : wsT V c t y = V c main_v3 y := by
  obtain ⟨-, -, -, -, -, -, e0, e1⟩ := place1 t
  unfold wsT iblk1
  rw [View.read_apply]
  show V c main_v3 (((cfg1.win 3).blk t).view.emb y) = V c main_v3 y
  congr 1
  funext a
  apply Fin.ext
  match a with
  | ⟨0, _⟩ => show win1_3.index t (0 : Fin 2) * 1024 + 1 * (y 0).val = (y 0).val; rw [e0]; omega
  | ⟨1, _⟩ => show win1_3.index t (1 : Fin 2) * 1024 + 1 * (y 1).val = (y 1).val; rw [e1]; omega

end Cert.KernelIdeal.Sage

end
-- ==== Proof.Spec.lean ====
/-
  The mathematics of the claim, over plain arrays of extended reals and with no program in sight.

  For an adjacency block `B` (8192 x 16384), features `x` (16384 x 1024) and two weight matrices `ws`, `wn`
  (1024 x 1024, stored output-major) the layer computes, at row `n` and output column `o`,

      (Σ_d x[n,d] · ws[o,d])  +  Σ_s B[n,s] · (Σ_d x[s,d] · wn[o,d]).

  The kernel computes the second term first, as a sum over 8 consecutive column blocks of 2048, against weights
  that were transposed beforehand, and adds the first term last. Equality needs only that addition of extended
  reals is commutative and associative; no finiteness enters.
-/
import Idealize.ShloMosaic.PureOps.Ideal
import Idealize.ShloMosaic.PureOps.Ideal.Laws
import Idealize.ShloMosaic.Lib.ValueIdx

noncomputable section

namespace Cert.SageSpec

open Idealize.ShloMosaic Idealize.ShloMosaic.ValueIdx
open scoped BigOperators

/-- A matrix of extended reals with `a` rows and `b` columns. -/
abbrev Mat (a b : Nat) : Type := (⟨2, ![a, b]⟩ : Shape).Idx → EReal

/-- The plain matrix product: `(L · R)[p,q] = Σ_j L[p,j] · R[j,q]`. -/
def mm {a k b : Nat} (L : Mat a k) (R : Mat k b) : Mat a b :=
  fun i => ∑ j : Fin k, L (ix2 (⟨(i 0).val, (i 0).isLt⟩ : Fin a) j) * R (ix2 j (⟨(i 1).val, (i 1).isLt⟩ : Fin b))

theorem mm_apply {a k b : Nat} (L : Mat a k) (R : Mat k b) (p : Fin a) (q : Fin b) :
    mm L R (ix2 p q) = ∑ j : Fin k, L (ix2 p j) * R (ix2 j q) := rfl

/-- The layer, from its four arguments. -/
def sage (B : Mat 8192 16384) (x : Mat 16384 1024) (ws wn : Mat 1024 1024) : Mat 8192 1024 :=
  fun i =>
    (∑ d : Fin 1024, x (ix2 (⟨(i 0).val, Nat.lt_trans (i 0).isLt (by decide)⟩ : Fin 16384) d) * ws (ix2 (⟨(i 1).val, (i 1).isLt⟩ : Fin 1024) d))
    + ∑ s : Fin 16384, B (ix2 (⟨(i 0).val, (i 0).isLt⟩ : Fin 8192) s)
        * ∑ d : Fin 1024, x (ix2 s d) * wn (ix2 (⟨(i 1).val, (i 1).isLt⟩ : Fin 1024) d)

/-- A sum over 16384 consecutive indices is the sum over 8 blocks of 2048. -/
theorem sum_blocks (f : ℕ → EReal) :
    ∑ s : Fin 16384, f s.val = ∑ j ∈ Finset.range 8, ∑ k : Fin 2048, f (2048 * j + k.val) := by
  -- every index below 16384 is 2048 * j + k for exactly one pair (j, k)
  have h1 : ∑ s : Fin 16384, f s.val = ∑ p : Fin 8 × Fin 2048, f (2048 * p.1.val + p.2.val) := by
    refine (Equiv.sum_comp (finProdFinEquiv (m := 8) (n := 2048)) (fun s : Fin (8 * 2048) => f s.val)).symm.trans ?_
    refine Finset.sum_congr rfl fun p _ => ?_
    show f (p.2.val + 2048 * p.1.val) = _
    rw [add_comm]
  rw [h1, Fintype.sum_prod_type]
  exact Fin.sum_univ_eq_sum_range (fun j => ∑ k : Fin 2048, f (2048 * j + k.val)) 8

/-- What the kernel computes, from the arrays its second stage finds: the adjacency block times the neighbour
    features `Y`, plus the first 8192 feature rows `xs` times the transposed self weights `wsT`. -/
def staged (B : Mat 8192 16384) (Y : Mat 16384 1024) (xs : Mat 8192 1024) (wsT : Mat 1024 1024) : Mat 8192 1024 :=
  fun i => mm B Y i + mm xs wsT i

/-- The kernel's arrangement is the layer: with `Y = x · wnT`, `wnT` and `wsT` the transposes of `wn` and `ws`,
    and `xs` the first 8192 rows of `x`. -/
theorem staged_eq_sage (B : Mat 8192 16384) (x : Mat 16384 1024) (ws wn wsT wnT : Mat 1024 1024) (xs : Mat 8192 1024)
    (hws : ∀ d o : Fin 1024, wsT (ix2 d o) = ws (ix2 o d)) (hwn : ∀ d o : Fin 1024, wnT (ix2 d o) = wn (ix2 o d))
    (hxs : ∀ (n : Fin 8192) (d : Fin 1024), xs (ix2 n d) = x (ix2 (⟨n.val, Nat.lt_trans n.isLt (by decide)⟩ : Fin 16384) d)) :
    staged B (mm x wnT) xs wsT = sage B x ws wn := by
  funext i
  obtain ⟨p, q, rfl⟩ : ∃ (p : Fin 8192) (q : Fin 1024), i = ix2 p q := ⟨i 0, i 1, eq_ix2 i⟩
  -- the self term: the first 8192 rows of x against the transposed self weights
  have e1 : mm xs wsT (ix2 p q)
      = ∑ d : Fin 1024, x (ix2 (⟨p.val, Nat.lt_trans p.isLt (by decide)⟩ : Fin 16384) d) * ws (ix2 q d) := by
    rw [mm_apply]
    exact Finset.sum_congr rfl fun d _ => by rw [hxs, hws]
  -- the neighbour term: the inner product is the entry of x · wnT
  have e2 : mm B (mm x wnT) (ix2 p q)
      = ∑ s : Fin 16384, B (ix2 p s) * ∑ d : Fin 1024, x (ix2 s d) * wn (ix2 q d) := by
    rw [mm_apply]
    refine Finset.sum_congr rfl fun s _ => ?_
    rw [mm_apply]
    congr 1
    exact Finset.sum_congr rfl fun d _ => by rw [hwn]
  show mm B (mm x wnT) (ix2 p q) + mm xs wsT (ix2 p q) = _
  rw [e1, e2, add_comm]
  rfl

end Cert.SageSpec

end
-- ==== Proof.KI.Val0.lean ====
/-
  What kernel 0 leaves in its result array, at the ideal values: every point writes back the product of its 1024
  rows of `x` with the weight matrix, the sixteen row blocks tile the array, so the array ends as the plain matrix
  product of the two arrays the kernel was entered with.
-/
import proofs.«163849_j14001593385221_1_alg».proof.Proof.KI.Blocks
import proofs.«163849_j14001593385221_1_alg».proof.Proof.Spec
import Idealize.ShloMosaic.PureOps.Ideal.Laws

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.SageSpec
open scoped BigOperators

variable (V : (c : Dev nD) → (b : Ref sig .tc) → Buf (Elt Ideal) ((c : Thread nD τ).loc b))

/-! ## The body's product, entry by entry -/

private theorem lhs_prod_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
private theorem lhs_prod_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
private theorem rhs_prod_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
private theorem rhs_prod_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block the body stores, at row `p` and column `q`: row `p` of the first block against column `q` of the
    second (narrowing changes nothing at the ideal values). -/
private theorem prod_apply (x : Vec Ideal S1024x1024 .f32) (w : Vec Ideal S1024x1024 .bf16) (p q : Fin 1024) :
    k0_pay1 x w (ix2 p q) = ∑ k : Fin 1024, x (ix2 p k) * w (ix2 k q) := by
  unfold k0_pay1
  simp only [matmul, shapeCast_self]
  refine Eq.trans (truncf_apply (φ := .f32) (ψ := .bf16) _ bitsLt_bf16_f32 (ix2 p q)) ?_
  refine Eq.trans (Ideal.matmul_constant_zero_apply (φ₁ := .bf16) (φ₂ := .bf16) dot_S1024x1024_S1024x1024_S1024x1024_1_0_0_1_n_n none (truncf .bf16 x bitsLt_bf16_f32) w (ix2 p q)) ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_prod_0 _ _
    | ⟨1, _⟩ => exact (lhs_prod_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_prod_0 _ _).trans hk
    | ⟨1, _⟩ => exact rhs_prod_1 _ _)
  rw [el, er]
  rfl

/-! ## From the sixteen blocks to the array -/

/-- An entry of the block point `t` leaves is the entry of the product of the two arrays in row `1024 t + ` its row. -/
private theorem yblk_apply (c : Dev nD) (t : Fin cfg0.N) (y : S1024x1024.Idx) (i : S16384x1024.Idx)
    (h0 : (i 0).val = 1024 * t.val + (y 0).val) (h1 : (i 1).val = (y 1).val) :
    yblk V c t y = mm (a := 16384) (k := 1024) (b := 1024) (V c main_arg1) (V c main_v1) i := by
  obtain ⟨p, q, rfl⟩ : ∃ (p q : Fin 1024), y = ix2 p q := ⟨y 0, y 1, eq_ix2 y⟩
  obtain ⟨r, s, rfl⟩ : ∃ (r : Fin 16384) (s : Fin 1024), i = ix2 r s := ⟨i 0, i 1, eq_ix2 i⟩
  obtain rfl : s = q := Fin.ext h1
  unfold yblk
  refine (prod_apply (xrows V c t) (wnT V c t) p s).trans ?_
  refine Eq.trans ?_ (mm_apply (a := 16384) (k := 1024) (b := 1024) (V c main_arg1) (V c main_v1) r s).symm
  refine Finset.sum_congr rfl fun k _ => ?_
  exact congrArg₂ (· * ·) (xrows_apply V c t (ix2 p k) (ix2 r k) h0 rfl) (wnT_apply V c t (ix2 k s))

/-- Point `t`'s block of the result array: block row `t`, the one block column. -/
private theorem place_out : ∀ t : Fin cfg0.N, win0_2.index t (0 : Fin 2) = t.val ∧ win0_2.index t (1 : Fin 2) = 0 :=
  (by decide +kernel : ∀ t : Fin grid0.N, _)

/-- What point `t` writes back is block `t` of the product of the two arrays. -/
private theorem written_eq (c : Dev nD) (t : Fin cfg0.N) :
    (dat0 (F := Ideal) V c).flushed 2 t = ((cfg0.win 2).blk t).view.read (Elt Ideal) (mm (a := 16384) (k := 1024) (b := 1024) (V c main_arg1) (V c main_v1)) := by
  obtain ⟨e0, e1⟩ := place_out t
  show (cfg0.win 2).cut (grid0.coords t) ((dat0 (F := Ideal) V c).after 2 t) = _
  rw [after0_2]
  funext y
  show yblk V c t y = mm (a := 16384) (k := 1024) (b := 1024) (V c main_arg1) (V c main_v1) (((cfg0.win 2).blk t).view.emb y)
  refine yblk_apply V c t y _ ?_ ?_
  · show win0_2.index t (0 : Fin 2) * 1024 + 1 * (y 0).val = 1024 * t.val + (y 0).val
    rw [e0]; omega
  · show win0_2.index t (1 : Fin 2) * 1024 + 1 * (y 1).val = (y 1).val
    rw [e1]; omega

/-- An index of the result array is in point `t`'s block iff each coordinate is in the block's range on its axis. -/
private theorem mem_out (t : Fin cfg0.N) (i : S16384x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v5).slice (win0_2.rect t)).set ↔ _
  rw [View.set_slice_whole, Rect.mem_set_unit]
  exact Iff.rfl

/-- Row `r` of the result array lies in the block of point `r / 1024`. -/
private theorem covered (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  obtain ⟨t, ht⟩ : ∃ t : Fin cfg0.N, t.val = (i 0).val / 1024 :=
    ⟨⟨(i 0).val / 1024, by rw [show cfg0.N = 16 from N_0]; omega⟩, rfl⟩
  obtain ⟨e0, e1⟩ := place_out t
  refine ⟨t, flush0_2 t, ?_⟩
  rw [mem_out]
  intro a
  match a with
  | ⟨0, _⟩ => show win0_2.index t (0 : Fin 2) * 1024 ≤ (i 0).val ∧ (i 0).val < win0_2.index t (0 : Fin 2) * 1024 + 1024; rw [e0]; omega
  | ⟨1, _⟩ => show win0_2.index t (1 : Fin 2) * 1024 ≤ (i 1).val ∧ (i 1).val < win0_2.index t (1 : Fin 2) * 1024 + 1024; rw [e1]; omega

/-- Kernel 0's result array after its sixteen points: the product of `x` with the (transposed, narrowed) neighbour
    weights it found. -/
theorem result0 (c : Dev nD) :
    (dat0 (F := Ideal) V c).arrAt 2 cfg0.N = mm (a := 16384) (k := 1024) (b := 1024) (V c main_arg1) (V c main_v1) := by
  exact (dat0 (F := Ideal) V c).arrAt_eq_of_cover 2 (mm (a := 16384) (k := 1024) (b := 1024) (V c main_arg1) (V c main_v1)) (fun t _ => written_eq V c t) (covered)

end Cert.KernelIdeal.Sage

end
-- ==== Proof.KI.Val1.lean ====
/-
  What kernel 1 leaves in its result array, at the ideal values. Along a row block's eight reduction steps the
  scratch holds the partial sums of the adjacency block times kernel 0's result over the column blocks seen so far
  (induction over the points); the last step adds the row block of `x` times the self weights and writes the block
  back; the sixteen row blocks tile the array. So the array ends as `staged` of the four arrays the kernel was
  entered with.
-/
import proofs.«163849_j14001593385221_1_alg».proof.Proof.KI.Blocks
import proofs.«163849_j14001593385221_1_alg».proof.Proof.Spec
import Idealize.ShloMosaic.PureOps.Ideal.Laws

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.SageSpec
open scoped BigOperators

/-! ## The body's arithmetic at an index -/

/-- The cleared scratch is zero at every index. -/
private theorem pay1_apply (p : Fin 512) (q : Fin 1024) : k1_pay1 (F := Ideal) (ix2 p q) = 0 := by
  unfold k1_pay1
  simp only [shapeCast_self]
  exact Ideal.ofBits_zero_f32

/-! The 512 x 2048 by 2048 x 1024 product: the operand indices of output index `i` at contraction index `q`,
    axis by axis. -/

private theorem lhsA_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
private theorem lhsA_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
private theorem rhsA_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
private theorem rhsA_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- That product from a zero accumulator, at row `p` and column `q`: the sum over the 2048 contraction indices. -/
private theorem mmA_apply (l : FVec Ideal S512x2048 .bf16) (r : FVec Ideal S2048x1024 .bf16) (p : Fin 512) (q : Fin 1024) :
    matmul dot_S512x2048_S2048x1024_S512x1024_1_0_0_1_n_n none l r (constant S512x1024 .f32 0x00000000#32) (ix2 p q)
      = ∑ k : Fin 2048, l (ix2 p k) * r (ix2 k q) := by
  simp only [matmul]
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 p q) ((contrEquiv1 dot_S512x2048_S2048x1024_S512x1024_1_0_0_1_n_n 2048 rfl rfl).symm k) = ix2 p k := funext fun a => Fin.ext (by
    match a with
    | ⟨0, _⟩ => exact lhsA_0 _ _
    | ⟨1, _⟩ => exact (lhsA_1 _ _).trans hk)
  have er : dot_S512x2048_S2048x1024_S512x1024_1_0_0_1_n_n.rhsIdx (ix2 p q) ((contrEquiv1 dot_S512x2048_S2048x1024_S512x1024_1_0_0_1_n_n 2048 rfl rfl).symm k) = ix2 k q := funext fun a => Fin.ext (by
    match a with
    | ⟨0, _⟩ => exact (rhsA_0 _ _).trans hk
    | ⟨1, _⟩ => exact rhsA_1 _ _)
  rw [el, er]

/-- A reduction step: what the scratch held plus the adjacency block times the rows of kernel 0's result. -/
private theorem pay2_apply (x0 : Vec Ideal S512x2048 .f32) (s : Vec Ideal S512x1024 .f32) (x1 : Vec Ideal S2048x1024 .bf16)
    (p : Fin 512) (q : Fin 1024) :
    k1_pay2 x0 s x1 (ix2 p q) = s (ix2 p q) + ∑ k : Fin 2048, x0 (ix2 p k) * x1 (ix2 k q) := by
  unfold k1_pay2
  simp only [shapeCast_self]
  refine (addf_apply _ _ _).trans ?_
  refine congrArg (fun z => s (ix2 p q) + z) ?_
  refine (mmA_apply _ _ p q).trans ?_
  rfl

/-! The 512 x 1024 by 1024 x 1024 product, likewise. -/

private theorem lhsB_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
private theorem lhsB_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
private theorem rhsB_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
private theorem rhsB_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- That product from a zero accumulator, at row `p` and column `q`: the sum over the 1024 contraction indices. -/
private theorem mmB_apply (l : FVec Ideal S512x1024 .bf16) (r : FVec Ideal S1024x1024 .bf16) (p : Fin 512) (q : Fin 1024) :
    matmul dot_S512x1024_S1024x1024_S512x1024_1_0_0_1_n_n none l r (constant S512x1024 .f32 0x00000000#32) (ix2 p q)
      = ∑ d : Fin 1024, l (ix2 p d) * r (ix2 d q) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhsB_0 _ _
    | ⟨1, _⟩ => exact (lhsB_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhsB_0 _ _).trans hk
    | ⟨1, _⟩ => exact rhsB_1 _ _)
  rw [el, er]

/-- The last step: the running sum plus the row block of `x` times the transposed self weights. -/
private theorem pay3_apply (x2 : Vec Ideal S512x1024 .f32) (x3 : Vec Ideal S1024x1024 .bf16) (s : Vec Ideal S512x1024 .f32)
    (p : Fin 512) (q : Fin 1024) :
    k1_pay3 x2 x3 s (ix2 p q) = s (ix2 p q) + ∑ d : Fin 1024, x2 (ix2 p d) * x3 (ix2 d q) := by
  unfold k1_pay3
  simp only [shapeCast_self]
  refine (addf_apply _ _ _).trans ?_
  refine congrArg (fun z => s (ix2 p q) + z) ?_
  refine (mmB_apply _ _ p q).trans ?_
  rfl

variable (V : (c : Dev nD) → (b : Ref sig .tc) → Buf (Elt Ideal) ((c : Thread nD τ).loc b))

/-! ## The running sum along a row block's eight reduction steps -/

/-- The four arrays kernel 1 is entered with, as matrices. -/
private abbrev matB (c : Dev nD) : Mat 8192 16384 := V c main_arg0
private abbrev matY (c : Dev nD) : Mat 16384 1024 := V c main_v5
private abbrev matX (c : Dev nD) : Mat 8192 1024 := V c main_v4
private abbrev matW (c : Dev nD) : Mat 1024 1024 := V c main_v3

/-- Term `s` of the neighbour product at row `r` and column `q`: entry `(r, s)` of the adjacency matrix times
    entry `(s, q)` of kernel 0's result; zero off the arrays, so that rows and terms are plain natural numbers. -/
private def nbr (c : Dev nD) (r : ℕ) (q : Fin 1024) (s : ℕ) : EReal :=
  if h : r < 8192 ∧ s < 16384 then matB V c (ix2 ⟨r, h.1⟩ ⟨s, h.2⟩) * matY V c (ix2 ⟨s, h.2⟩ q) else 0

/-- The grid has 128 points. -/
private theorem point_lt (t : Fin cfg1.N) : t.val < 128 := lt_of_lt_of_eq t.isLt N_1

/-- The product a point adds, at row `p` and column `q` of its block: the 2048 terms of column block `t % 8`
    at row `512 (t / 8) + p` of the whole arrays. -/
private theorem step_term (c : Dev nD) (t : Fin cfg1.N) (p : Fin 512) (q : Fin 1024) :
    ∑ k : Fin 2048, adj V c t (ix2 p k) * yrows V c t (ix2 k q)
      = ∑ k : Fin 2048, nbr V c (512 * (t.val / 8) + p.val) q (2048 * (t.val % 8) + k.val) := by
  have hN := point_lt t
  refine Finset.sum_congr rfl fun k _ => ?_
  have hr : 512 * (t.val / 8) + p.val < 8192 := by have := p.isLt; omega
  have hs : 2048 * (t.val % 8) + k.val < 16384 := by have := k.isLt; omega
  unfold nbr
  rw [dif_pos ⟨hr, hs⟩]
  exact congrArg₂ (· * ·) (adj_apply V c t (ix2 p k) (ix2 ⟨_, hr⟩ ⟨_, hs⟩) rfl rfl)
    (yrows_apply V c t (ix2 k q) (ix2 ⟨_, hs⟩ q) rfl rfl)

/-- At a point that starts a reduction the scratch holds the first column block's terms. -/
private theorem acc_start (c : Dev nD) (t : Fin cfg1.N) (h0 : t.val % 8 = 0) (p : Fin 512) (q : Fin 1024) :
    accAt V c t.val t.isLt (ix2 p q)
      = ∑ j ∈ Finset.range (t.val % 8 + 1), ∑ k : Fin 2048, nbr V c (512 * (t.val / 8) + p.val) q (2048 * j + k.val) := by
  refine (congrFun (accAt_start V c t h0) (ix2 p q)).trans ?_
  refine (pay2_apply _ _ _ p q).trans ?_
  rw [pay1_apply, zero_add, step_term V c t p q, h0]
  exact (Finset.sum_range_one (fun j => ∑ k : Fin 2048, nbr V c (512 * (t.val / 8) + p.val) q (2048 * j + k.val))).symm

/-- After point `n` the scratch holds, at row `p` and column `q`, the terms of the column blocks `0 … n % 8` at row
    `512 (n / 8) + p`: by induction over the points, a point that does not start a reduction adding its column
    block to what the point before left. -/
private theorem acc_eq (c : Dev nD) : ∀ (n : ℕ) (hn : n < cfg1.N) (p : Fin 512) (q : Fin 1024),
    accAt V c n hn (ix2 p q)
      = ∑ j ∈ Finset.range (n % 8 + 1), ∑ k : Fin 2048, nbr V c (512 * (n / 8) + p.val) q (2048 * j + k.val) := by
  intro n
  induction n with
  | zero =>
    intro hn p q
    exact acc_start V c ⟨0, hn⟩ rfl p q
  | succ n ih =>
    intro hn p q
    by_cases h0 : (n + 1) % 8 = 0
    · exact acc_start V c ⟨n + 1, hn⟩ h0 p q
    · refine (congrFun (accAt_step V c ⟨n + 1, hn⟩ h0) (ix2 p q)).trans ?_
      refine (pay2_apply _ _ _ p q).trans ?_
      have e := ih (Nat.lt_of_succ_lt hn) p q
      rw [show n % 8 + 1 = (n + 1) % 8 from by omega, show n / 8 = (n + 1) / 8 from by omega] at e
      refine (congrArg₂ (· + ·) e (step_term V c ⟨n + 1, hn⟩ p q)).trans ?_
      exact (Finset.sum_range_succ (fun j => ∑ k : Fin 2048, nbr V c (512 * ((n + 1) / 8) + p.val) q (2048 * j + k.val)) ((n + 1) % 8)).symm

/-! ## The block written back at the last reduction step -/

/-- What the last reduction step stores, at row `p` and column `q` of its block: the entry of `staged` at row
    `512 (t / 8) + p`. The eight column blocks are the whole neighbour sum; the self term reads the row block of
    `x` and the whole self weights. -/
private theorem outAt_apply (c : Dev nD) (t : Fin cfg1.N) (h7 : t.val % 8 = 7) (p : Fin 512) (q : Fin 1024)
    (hr : 512 * (t.val / 8) + p.val < 8192) :
    outAt V c t (ix2 p q)
      = staged (matB V c) (matY V c) (matX V c) (matW V c) (ix2 (⟨512 * (t.val / 8) + p.val, hr⟩ : Fin 8192) q) := by
  unfold outAt
  refine (pay3_apply _ _ _ p q).trans ?_
  rw [acc_eq V c t.val t.isLt p q, h7]
  show _ = mm (matB V c) (matY V c) (ix2 (⟨512 * (t.val / 8) + p.val, hr⟩ : Fin 8192) q)
    + mm (matX V c) (matW V c) (ix2 (⟨512 * (t.val / 8) + p.val, hr⟩ : Fin 8192) q)
  rw [mm_apply, mm_apply]
  refine congrArg₂ (· + ·) ?_ ?_
  · refine (sum_blocks (nbr V c (512 * (t.val / 8) + p.val) q)).symm.trans ?_
    refine Finset.sum_congr rfl fun s _ => ?_
    unfold nbr
    rw [dif_pos ⟨hr, s.isLt⟩]
  · refine Finset.sum_congr rfl fun d _ => ?_
    exact congrArg₂ (· * ·) (xself_apply V c t (ix2 p d) (ix2 (⟨512 * (t.val / 8) + p.val, hr⟩ : Fin 8192) d) rfl rfl)
      (wsT_apply V c t (ix2 d q))

/-- The result window's block index at a point: row block `t / 8`, the one column block. -/
private theorem out_index : ∀ t : Fin cfg1.N, win1_4.index t (0 : Fin 2) = t.val / 8 ∧ win1_4.index t (1 : Fin 2) = 0 :=
  (by decide +kernel : ∀ t : Fin grid1.N, win1_4.index t (0 : Fin 2) = t.val / 8 ∧ win1_4.index t (1 : Fin 2) = 0)

/-- What a write-back point writes is its block of `staged`. -/
private theorem flushed_eq (c : Dev nD) (t : Fin cfg1.N) (hf : (cfg1.win 4).flush t = true) :
    (dat1 (F := Ideal) V c).flushed 4 t
      = ((cfg1.win 4).blk t).view.read (Elt Ideal) (staged (V c main_arg0) (V c main_v5) (V c main_v4) (V c main_v3)) := by
  have h7 : t.val % 8 = 7 := (flush1_4 t).mp hf
  have hN := point_lt t
  obtain ⟨e0, e1⟩ := out_index t
  show (cfg1.win 4).cut (grid1.coords t) ((dat1 (F := Ideal) V c).after 4 t) = _
  rw [after1_4]
  funext j
  have hj0 : (j 0).val < 512 := (j 0).isLt
  have hj1 : (j 1).val < 1024 := (j 1).isLt
  have hr : 512 * (t.val / 8) + (j 0).val < 8192 := by omega
  have ej : ((cfg1.win 4).xinj (grid1.coords t) j : S512x1024.Idx) = ix2 (⟨(j 0).val, hj0⟩ : Fin 512) (⟨(j 1).val, hj1⟩ : Fin 1024) :=
    eq_ix2 _
  show outAt V c t ((cfg1.win 4).xinj (grid1.coords t) j)
    = staged (matB V c) (matY V c) (matX V c) (matW V c) (((cfg1.win 4).blk t).view.emb j)
  refine (congrArg (outAt V c t) ej).trans ?_
  refine (outAt_apply V c t h7 _ _ hr).trans ?_
  refine congrArg (staged (matB V c) (matY V c) (matX V c) (matW V c)) ?_
  funext a
  apply Fin.ext
  match a with
  | ⟨0, _⟩ =>
    show 512 * (t.val / 8) + (j 0).val = win1_4.index t (0 : Fin 2) * 512 + 1 * (j 0).val
    rw [e0]; omega
  | ⟨1, _⟩ =>
    show (j 1).val = win1_4.index t (1 : Fin 2) * 1024 + 1 * (j 1).val
    rw [e1]; omega

/-! ## The sixteen row blocks tile the array -/

/-- Row `r` lies in the block written back at the last reduction step of row block `r / 512`. -/
private theorem cover (i : S8192x1024.Idx) :
    ∃ t : Fin cfg1.N, (cfg1.win 4).flush t = true ∧ i ∈ ((cfg1.win 4).blk t).view.set := by
  have hi0 : (i 0).val < 8192 := (i 0).isLt
  have hi1 : (i 1).val < 1024 := (i 1).isLt
  have hlt : 8 * ((i 0).val / 512) + 7 < cfg1.N := by rw [show cfg1.N = 128 from N_1]; omega
  refine ⟨⟨8 * ((i 0).val / 512) + 7, hlt⟩, (flush1_4 _).mpr (by show (8 * ((i 0).val / 512) + 7) % 8 = 7; omega), ?_⟩
  obtain ⟨e0, e1⟩ := out_index ⟨8 * ((i 0).val / 512) + 7, hlt⟩
  have e0' : win1_4.index ⟨8 * ((i 0).val / 512) + 7, hlt⟩ (0 : Fin 2) = (i 0).val / 512 := by rw [e0]; show (8 * ((i 0).val / 512) + 7) / 8 = _; omega
  show i ∈ ((View.whole main_v6).slice (win1_4.rect ⟨8 * ((i 0).val / 512) + 7, hlt⟩)).set
  rw [View.set_slice_whole, Rect.mem_set_unit]
  intro a
  match a with
  | ⟨0, _⟩ =>
    show win1_4.index ⟨8 * ((i 0).val / 512) + 7, hlt⟩ (0 : Fin 2) * 512 ≤ (i 0).val
      ∧ (i 0).val < win1_4.index ⟨8 * ((i 0).val / 512) + 7, hlt⟩ (0 : Fin 2) * 512 + 512
    rw [e0']; omega
  | ⟨1, _⟩ =>
    show win1_4.index ⟨8 * ((i 0).val / 512) + 7, hlt⟩ (1 : Fin 2) * 1024 ≤ (i 1).val
      ∧ (i 1).val < win1_4.index ⟨8 * ((i 0).val / 512) + 7, hlt⟩ (1 : Fin 2) * 1024 + 1024
    rw [e1]; omega

/-- Kernel 1's result array after its 128 points. -/
theorem result1 (c : Dev nD) :
    (dat1 (F := Ideal) V c).arrAt 4 cfg1.N = staged (V c main_arg0) (V c main_v5) (V c main_v4) (V c main_v3) :=
  (dat1 (F := Ideal) V c).arrAt_eq_of_cover 4 (staged (V c main_arg0) (V c main_v5) (V c main_v4) (V c main_v3))
    (fun t ht => flushed_eq V c t ht) cover

end Cert.KernelIdeal.Sage

end
-- ==== Proof.KI.HostVals.lean ====
/-
  What the kernels find in the buffers the host operations made, per core, as equations of whole contents: the two
  weight matrices transposed and narrowed, the first 8192 rows of `x`, the arguments as launched; and that kernel 1
  finds kernel 0's output array at what kernel 0's write-backs leave and every other buffer as kernel 0 found it.
-/
import proofs.«163849_j14001593385221_1_alg».proof.Proof.KI.Conts
import Idealize.ShloMosaic.Lib.StableHlo.Run

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Kernel 0's entry: what the host operations made -/

/-- The neighbour weights, transposed and narrowed. -/
theorem V1_main_v1 (c : Dev nD) :
    V1 m ρ c main_v1 = truncf .bf16 (transpose S1024x1024 [1, 0] (m ((c : Thread nD τ).loc main_arg3)) transposes_S1024x1024_S1024x1024_1_0) bitsLt_bf16_f32 := by
  show StableHlo.after hostOps0 (fun b => m (c, b)) (Proc.devRef .tc main_v1) = _
  after_results

/-- The self weights, transposed and narrowed. -/
theorem V1_main_v3 (c : Dev nD) :
    V1 m ρ c main_v3 = truncf .bf16 (transpose S1024x1024 [1, 0] (m ((c : Thread nD τ).loc main_arg2)) transposes_S1024x1024_S1024x1024_1_0) bitsLt_bf16_f32 := by
  show StableHlo.after hostOps0 (fun b => m (c, b)) (Proc.devRef .tc main_v3) = _
  after_results

/-- The first 8192 rows of `x`. -/
theorem V1_main_v4 (c : Dev nD) :
    V1 m ρ c main_v4 = extractStridedSlice S8192x1024 ![0, 0] (m ((c : Thread nD τ).loc main_arg1)) slices_S16384x1024_S8192x1024_0_0 := by
  show StableHlo.after hostOps0 (fun b => m (c, b)) (Proc.devRef .tc main_v4) = _
  after_results

/-- The adjacency matrix as launched. -/
theorem V1_main_arg0 (c : Dev nD) : V1 m ρ c main_arg0 = m ((c : Thread nD τ).loc main_arg0) :=
  W1_of_not_written m ρ c main_arg0 (by decide)

/-- `x` as launched. -/
theorem V1_main_arg1 (c : Dev nD) : V1 m ρ c main_arg1 = m ((c : Thread nD τ).loc main_arg1) :=
  W1_of_not_written m ρ c main_arg1 (by decide)

/-! ## Kernel 1's entry: kernel 0's output array, the rest as kernel 0 found it -/

/-- Kernel 0's output array holds what its write-backs leave. -/
theorem V2_main_v5 (c : Dev nD) : V2 m ρ c main_v5 = (dat0 (V1 m ρ) c).arrAt 2 cfg0.N :=
  W2_arr m ρ c 2

theorem V2_main_arg0 (c : Dev nD) : V2 m ρ c main_arg0 = V1 m ρ c main_arg0 :=
  W2_of_ne m ρ c main_arg0 (by decide)
theorem V2_main_v4 (c : Dev nD) : V2 m ρ c main_v4 = V1 m ρ c main_v4 :=
  W2_of_ne m ρ c main_v4 (by decide)
theorem V2_main_v3 (c : Dev nD) : V2 m ρ c main_v3 = V1 m ρ c main_v3 :=
  W2_of_ne m ρ c main_v3 (by decide)

end Cert.KernelIdeal.Sage

end
-- ==== Proof.KI.Bridge.lean ====
/-
  The kernel's result is the layer of its arguments, at the ideal values: kernel 1 leaves `staged` of the arrays it
  finds; the array it finds as neighbour features is kernel 0's plain product of `x` with the transposed neighbour
  weights; the other two are the first 8192 rows of `x` and the transposed self weights; a change of float format
  is the identity here.
-/
import proofs.«163849_j14001593385221_1_alg».proof.Proof.KI.Val0
import proofs.«163849_j14001593385221_1_alg».proof.Proof.KI.Val1
import proofs.«163849_j14001593385221_1_alg».proof.Proof.KI.HostVals
import Idealize.ShloMosaic.Lib.ValueLayout
import Idealize.ShloMosaic.Lib.Pipeline.Value

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.SageSpec
open scoped BigOperators

variable (m : (ℓ : Loc nD τ sig) → Buf (Elt Ideal) ℓ) (ρ : Dev nD → PrngReg)

/-- A stored weight matrix, transposed and narrowed by the host, read at `(d, o)` is the argument at `(o, d)`. -/
theorem narrowed_transpose_apply (w : Vec Ideal S1024x1024 .f32) (d o : Fin 1024) :
    (truncf .bf16 (transpose S1024x1024 [1, 0] w transposes_S1024x1024_S1024x1024_1_0) bitsLt_bf16_f32 : FVec Ideal S1024x1024 .bf16) (ix2 d o)
      = w (ix2 o d) :=
  (truncf_apply (φ := .f32) (ψ := .bf16) (transpose S1024x1024 [1, 0] w transposes_S1024x1024_S1024x1024_1_0) bitsLt_bf16_f32 (ix2 d o)).trans (transpose_ix2_apply w transposes_S1024x1024_S1024x1024_1_0 d o)

/-- The host's slice of the first 8192 rows of `x`, read at `(n, d)`, is `x` there. -/
theorem first_rows_apply (x : Vec Ideal S16384x1024 .f32) (n : Fin 8192) (d : Fin 1024) :
    extractStridedSlice S8192x1024 ![0, 0] x slices_S16384x1024_S8192x1024_0_0 (ix2 n d)
      = x (ix2 (⟨n.val, Nat.lt_trans n.isLt (by decide)⟩ : Fin 16384) d) :=
  extractStridedSlice_apply ![0, 0] x slices_S16384x1024_S8192x1024_0_0 _ _ fun a => match a with
    | ⟨0, _⟩ => by show n.val = 0 + n.val; omega
    | ⟨1, _⟩ => by show d.val = 0 + d.val; omega

/-- What kernel 1's write-backs leave in the result array is the layer of the launch contents of the arguments. -/
theorem kernel_eq_sage (c : Dev nD) :
    (dat1 (F := Ideal) (V2 m ρ) c).arrAt 4 cfg1.N
      = sage (m ((c.tc : Thread nD τ).loc main_arg0)) (m ((c.tc : Thread nD τ).loc main_arg1))
          (m ((c.tc : Thread nD τ).loc main_arg2)) (m ((c.tc : Thread nD τ).loc main_arg3)) := by
  rw [result1 (V2 m ρ) c, V2_main_v5, result0 (V1 m ρ) c, V2_main_arg0, V2_main_v4, V2_main_v3, V1_main_arg0, V1_main_arg1,
    V1_main_v1, V1_main_v3, V1_main_v4]
  exact staged_eq_sage _ _ _ _ _ _ _
    (fun d o => narrowed_transpose_apply _ d o) (fun d o => narrowed_transpose_apply _ d o) (fun n d => first_rows_apply _ n d)

end Cert.KernelIdeal.Sage

end
-- ==== Proof.RefVal.lean ====
/-
  The reference at the ideal values is the layer: its slice, its three contractions and its sum, read at an index,
  are the sums of `sage`.
-/
import proofs.«163849_j14001593385221_1_alg».proof.Proof.Gen.ReferenceIdeal.Read
import proofs.«163849_j14001593385221_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.SageSpec Cert.ReferenceIdeal.Read
open scoped BigOperators

/-- The reference's result term is the layer of its four arguments. -/
theorem ref_eq_sage (x0 : (⟨S8192x16384, .f32⟩ : BufTy).Contents (Elt Ideal)) (x1 : (⟨S16384x1024, .f32⟩ : BufTy).Contents (Elt Ideal))
    (x2 x3 : (⟨S1024x1024, .f32⟩ : BufTy).Contents (Elt Ideal)) :
    val_main_v4 (F := Ideal) x0 x1 x2 x3 = sage x0 x1 x2 x3 := by
  funext i
  -- the self term: the slice's rows are the first 8192 rows of the features
  have h1 : val_main_v1 (F := Ideal) x1 x2 i
      = ∑ d : Fin 1024, x1 (ix2 (⟨(i 0).val, Nat.lt_trans (i 0).isLt (by decide)⟩ : Fin 16384) d)
          * x2 (ix2 (⟨(i 1).val, (i 1).isLt⟩ : Fin 1024) d) := by
    rw [val_main_v1_apply]
    refine Finset.sum_congr rfl fun d _ => ?_
    rw [val_main_v0_apply]
    have ea : idx_main_v0 (lidx_main_v1 i d)
        = ix2 (⟨(i 0).val, Nat.lt_trans (i 0).isLt (by decide)⟩ : Fin 16384) d :=
      funext fun a => Fin.ext (by match a with | ⟨0, _⟩ => rfl | ⟨1, _⟩ => rfl)
    have eb : ridx_main_v1 i d = ix2 (⟨(i 1).val, (i 1).isLt⟩ : Fin 1024) d :=
      funext fun a => Fin.ext (by match a with | ⟨0, _⟩ => rfl | ⟨1, _⟩ => rfl)
    rw [ea, eb]
  -- the neighbour term: the adjacency row against the features times the neighbour weights
  have h3 : val_main_v3 (F := Ideal) x0 x1 x3 i
      = ∑ s : Fin 16384, x0 (ix2 (⟨(i 0).val, (i 0).isLt⟩ : Fin 8192) s)
          * ∑ d : Fin 1024, x1 (ix2 s d) * x3 (ix2 (⟨(i 1).val, (i 1).isLt⟩ : Fin 1024) d) := by
    rw [val_main_v3_apply]
    refine Finset.sum_congr rfl fun s _ => ?_
    rw [val_main_v2_apply]
    have ea : lidx_main_v3 i s = ix2 (⟨(i 0).val, (i 0).isLt⟩ : Fin 8192) s :=
      funext fun a => Fin.ext (by match a with | ⟨0, _⟩ => rfl | ⟨1, _⟩ => rfl)
    rw [ea]
    congr 1
    refine Finset.sum_congr rfl fun d _ => ?_
    have eb : lidx_main_v2 (ridx_main_v3 i s) d = ix2 s d :=
      funext fun a => Fin.ext (by match a with | ⟨0, _⟩ => rfl | ⟨1, _⟩ => rfl)
    have ec : ridx_main_v2 (ridx_main_v3 i s) d = ix2 (⟨(i 1).val, (i 1).isLt⟩ : Fin 1024) d :=
      funext fun a => Fin.ext (by match a with | ⟨0, _⟩ => rfl | ⟨1, _⟩ => rfl)
    rw [eb, ec]
  rw [val_main_v4_apply, Ideal.addf_def, h1, h3]
  rfl

end Cert.ReferenceIdeal.RefValue

end
-- ==== Proof.lean ====
/-
  The certificate of the graph layer `x[:8192] · wsᵀ + B · (x · wnᵀ)` computed by two pipelined kernels against
  its plain reference.

  The kernels: the first multiplies `x`, 1024 rows at a time, by the transposed neighbour weights; the second
  walks row blocks of 512 and, inside each, eight column blocks of 2048 of the adjacency matrix `B`, keeping the
  running sum of `B`-block times the matching rows of the first kernel's result in a scratch buffer, and at the
  eighth step adds the row block of `x` times the transposed self weights and writes the block out.

  Frames (both readings of the kernel program): the run of @main is three segments — the host operations, then
  the two kernels —, each kernel a pipeline whose body is run symbolically at every grid point; the buffers'
  contents are named at every boundary, and no segment writes an argument. The reference's frame is its run.
  Values: at the ideal values the first kernel's array is the plain product, the second kernel's array the sum
  over the eight column blocks plus the self term (induction over the grid points); the eight block sums are the
  one sum over all 16384 columns, and the two terms are swapped against the reference's order: only commutativity
  and associativity of addition on the extended reals are used, so the precondition is never opened.
-/
import proofs.«163849_j14001593385221_1_alg».proof.Defs
import proofs.«163849_j14001593385221_1_alg».proof.Proof.Gen.Kernel
import proofs.«163849_j14001593385221_1_alg».proof.Proof.Gen.KernelIdeal
import proofs.«163849_j14001593385221_1_alg».proof.Proof.Gen.ReferenceIdeal
import proofs.«163849_j14001593385221_1_alg».proof.Proof.Gen.Pre_finite_inputs
import proofs.«163849_j14001593385221_1_alg».proof.Proof.Gen.ReferenceIdeal.Run
import proofs.«163849_j14001593385221_1_alg».proof.Proof.Gen.ReferenceIdeal.Read
import proofs.«163849_j14001593385221_1_alg».proof.Proof.KI.Ends
import proofs.«163849_j14001593385221_1_alg».proof.Proof.KI.Bridge
import proofs.«163849_j14001593385221_1_alg».proof.Proof.K.Ends
import proofs.«163849_j14001593385221_1_alg».proof.Proof.RefVal

noncomputable section

namespace Cert.Proof

open Idealize.ShloMosaic Idealize.ShloMosaic.TcCoe Idealize.SL.Sem Cert.SageSpec

/-- The word-level kernel program runs and leaves its arguments unchanged. -/
theorem frame_k : Cert.frame_Kernel := fun m ρ _ => Cert.Kernel.Sage.frame (F := Bits) m ρ

/-- So does its reading at the ideal values. -/
theorem frame_ki : Cert.frame_KernelIdeal := fun m ρ _ => Cert.KernelIdeal.Sage.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the layer `sage` of the argument arrays in their result buffers. -/
theorem algebraic : Cert.algebraic_KernelIdeal_ReferenceIdeal := by
  intro m ρ m' ρ' _ hagree
  refine ⟨fun c => sage (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Sage.kernel_eq_sage m ρ c), (h c).2⟩)
      (Cert.KernelIdeal.Sage.ends (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v4_eq, Cert.ReferenceIdeal.RefValue.ref_eq_sage,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
